-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x128 : Shape := ⟨2, ![50000, 128]⟩
abbrev S800000x16 : Shape := ⟨2, ![800000, 16]⟩
abbrev S128x273 : Shape := ⟨2, ![128, 273]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S2x800000 : Shape := ⟨2, ![2, 800000]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S800000x16 : S_.BroadcastsInDim S800000x16 (![] : Fin 0 → Fin S800000x16.rank)
  reducesTo_S800000x16_S_d0_1 : S800000x16.ReducesTo [0, 1] S_
  bcast_S_S128x273 : S_.BroadcastsInDim S128x273 (![] : Fin 0 → Fin S128x273.rank)
  reducesTo_S128x273_S_d0_1 : S128x273.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x128 .f32) (main_arg12 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg11
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S128x256 .f32) (main_arg8 : FVec F S128 .f32) (main_arg9 : FVec F S128x128 .f32) (main_arg10 : FVec F S128 .f32) (main_arg11 : FVec F S1x128 .f32) (main_arg12 : FVec F S1 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S1x128 .f32) (main_arg12 : FVec F S1 .f32) (main_v13 : IVec S_ 1) (main_v16 : IVec S128x273 1) : IVec S_ 1 :=
  let main_c_5 : IVec S_ 1 := constantI S_ 1 1#1
  let main_v17 : IVec S_ 1 := (fun x v => Host.reduce IntOp.andi x v reducesTo_S128x273_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x3 .f32) (main_arg1 : FVec F S50000x128 .f32) (main_arg2 : FVec F S800000x16 .f32) (main_arg3 : FVec F S128x273 .f32) (main_arg4 : FVec F S128 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S1x128 .f32) (main_arg12 : FVec F S1 .f32) (main_arg13 : IVec S2x800000 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000x16 .f32 := Host.absf main_arg2
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S128x273 .f32 := Host.absf main_arg3
  let main_cst_4 : FVec F S_ .f32 := constant S_ .f32 0x7F800000#32
  let main_v15 : FVec F S128x273 .f32 := broadcastInDim S128x273 ![] bcast_S_S128x273 main_cst_4
  let main_v16 : IVec S128x273 1 := cmpf .olt main_v14 main_v15
  fn_part1 (F := F) main_arg4 main_arg5 main_arg6 main_arg7 main_arg8 main_arg9 main_arg10 main_arg11 main_arg12 main_v13 main_v16
-- ==== Kernel.lean ====
abbrev S50000x3 : Shape := ⟨2, ![50000, 3]⟩
abbrev S50000x128 : Shape := ⟨2, ![50000, 128]⟩
abbrev S800000x16 : Shape := ⟨2, ![800000, 16]⟩
abbrev S128x273 : Shape := ⟨2, ![128, 273]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S800000x17 : Shape := ⟨2, ![800000, 17]⟩
abbrev S4000x128 : Shape := ⟨2, ![4000, 128]⟩
abbrev S4000x17 : Shape := ⟨2, ![4000, 17]⟩
abbrev S4000x273 : Shape := ⟨2, ![4000, 273]⟩
abbrev S273x128 : Shape := ⟨2, ![273, 128]⟩
abbrev S128x1 : Shape := ⟨2, ![128, 1]⟩
abbrev S4000x1 : Shape := ⟨2, ![4000, 1]⟩
abbrev S1x1 : Shape := ⟨2, ![1, 1]⟩
abbrev S5000x128 : Shape := ⟨2, ![5000, 128]⟩
abbrev S5000x256 : Shape := ⟨2, ![5000, 256]⟩
abbrev S256x128 : Shape := ⟨2, ![256, 128]⟩

abbrev nBuf : Space → Nat
  | .hbm => 67
  | .vmem => 24
  | .smem => 0
  | _ => 0

abbrev bufTy : (tb : Table) → Fin (tcTables nBuf tb) → BufTy
  | .hbm, ⟨0, _⟩ => ⟨S50000x3, .f32⟩
  | .hbm, ⟨1, _⟩ => ⟨S50000x128, .f32⟩
  | .hbm, ⟨2, _⟩ => ⟨S800000x16, .f32⟩
  | .hbm, ⟨3, _⟩ => ⟨S128x273, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1, .f32⟩
  | .hbm, ⟨13, _⟩ => ⟨S2x800000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x3, .f32⟩
  | .hbm, ⟨54, _⟩ => ⟨S800000x3, .f32⟩
  | .hbm, ⟨55, _⟩ => ⟨S800000x3, .f32⟩
  | .hbm, ⟨56, _⟩ => ⟨S_, .f32⟩
  | .hbm, ⟨57, _⟩ => ⟨S800000, .f32⟩
  | .hbm, ⟨58, _⟩ => ⟨S800000x1, .f32⟩
  | .hbm, ⟨59, _⟩ => ⟨S800000x1, .f32⟩
  | .hbm, ⟨60, _⟩ => ⟨S800000x17, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x17, .f32⟩
  | .local _ .vmem, ⟨5, _⟩ => ⟨S4000x17, .f32⟩
  | .local _ .vmem, ⟨6, _⟩ => ⟨S128x273, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S1x128, .f32⟩
  | .local _ .vmem, ⟨11, _⟩ => ⟨S1, .f32⟩
  | .local _ .vmem, ⟨12, _⟩ => ⟨S4000x128, .f32⟩
  | .local _ .vmem, ⟨13, _⟩ => ⟨S4000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x256, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x17 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x273 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x1_S800000x16_S800000x17_d1 : Shape.Concatenates [S800000x1, S800000x16] S800000x17 1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x17_S4000x17_0_0 : ∀ a, (![0, 0] : Fin 2 → Nat) a + S4000x17.size a ≤ S4000x17.size a
  h_S4000x17 : 0 < S4000x17.numel
  shapeCasts_S4000x17_S4000x17 : S4000x17.ShapeCasts S4000x17
  concatenates_S4000x128_S4000x128_S4000x17_S4000x273_d1 : Shape.Concatenates [S4000x128, S4000x128, S4000x17] S4000x273 1
  bitsLt_bf16_f32 : FTy.bits .bf16 < FTy.bits .f32
  inb_S128x273_S128x273_0_0 : ∀ a, (![0, 0] : Fin 2 → Nat) a + S128x273.size a ≤ S128x273.size a
  h_S128x273 : 0 < S128x273.numel
  inb_S128_S128_0 : ∀ a, (![0] : Fin 1 → Nat) a + S128.size a ≤ S128.size a
  h_S128 : 0 < S128.numel
  transposes_S128x273_p1_0_S273x128 : S128x273.Transposes [1, 0] S273x128
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  transposes_S1x128_p1_0_S128x1 : S1x128.Transposes [1, 0] S128x1
  shapeCasts_S1_S1x1 : S1.ShapeCasts S1x1
  broadcasts_S1x1_S4000x1 : S1x1.Broadcasts S4000x1
  broadcasts_S4000x1_S4000x128 : S4000x1.Broadcasts S4000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4000x273_S273x128_S4000x128_1_0_0_1_n_n_wf : DotDims.WF S4000x273 S273x128 S4000x128 [1] [0] [0] [1] [] []
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x17.size a ≤ S800000x17.size a
  hwx0_2 : ∀ i : grid0.Coords, EltTy.bits .f32 = 32 ∨ (Rect.block (s := S800000x17) S4000x17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x273.size a ≤ S128x273.size a
  hwx0_3 : ∀ i : grid0.Coords, EltTy.bits .f32 = 32 ∨ (Rect.block (s := S128x273) S128x273.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S800000x128.size a
  hwx0_9 : ∀ i : grid0.Coords, EltTy.bits .f32 = 32 ∨ (Rect.block (s := S800000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x273_S273x128_S4000x128_1_0_0_1_n_n : DotDims S4000x273 S273x128 S4000x128 where
  lhsContracting := [1]
  rhsContracting := [0]
  lhsNonContracting := [0]
  rhsNonContracting := [1]
  lhsBatch := []
  rhsBatch := []
  wf := dot_S4000x273_S273x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S4000x17.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x273.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x3 : Shape := ⟨2, ![50000, 3]⟩
abbrev S50000x128 : Shape := ⟨2, ![50000, 128]⟩
abbrev S800000x16 : Shape := ⟨2, ![800000, 16]⟩
abbrev S128x273 : Shape := ⟨2, ![128, 273]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x273 : Shape := ⟨2, ![800000, 273]⟩
abbrev S273x128 : Shape := ⟨2, ![273, 128]⟩
abbrev S128x1 : Shape := ⟨2, ![128, 1]⟩
abbrev S1x1 : Shape := ⟨2, ![1, 1]⟩
abbrev S50000x256 : Shape := ⟨2, ![50000, 256]⟩
abbrev S256x128 : Shape := ⟨2, ![256, 128]⟩

abbrev nBuf : Space → Nat
  | .hbm => 129
  | .vmem => 0
  | .smem => 0
  | _ => 0

abbrev hbmTy0_0 (i : Nat) : BufTy := match i % 128 with
  | 0 => ⟨S50000x3, .f32⟩
  | 1 => ⟨S50000x128, .f32⟩
  | 2 => ⟨S800000x16, .f32⟩
  | 3 => ⟨S128x273, .f32⟩
  | 4 => ⟨S128, .f32⟩
  | 5 => ⟨S128x128, .f32⟩
  | 6 => ⟨S128, .f32⟩
  | 7 => ⟨S128x256, .f32⟩
  | 8 => ⟨S128, .f32⟩
  | 9 => ⟨S128x128, .f32⟩
  | 10 => ⟨S128, .f32⟩
  | 11 => ⟨S1x128, .f32⟩
  | 12 => ⟨S1, .f32⟩
  | 13 => ⟨S2x800000, .i32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x3, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x3, .f32⟩
  | 36 => ⟨S800000x3, .f32⟩
  | 37 => ⟨S800000x3, .f32⟩
  | 38 => ⟨S_, .f32⟩
  | 39 => ⟨S800000, .f32⟩
  | 40 => ⟨S800000x1, .f32⟩
  | 41 => ⟨S800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x273, .f32⟩
  | 61 => ⟨S273x128, .f32⟩
  | 62 => ⟨S800000x128, .f32⟩
  | 63 => ⟨S1x128, .f32⟩
  | 64 => ⟨S800000x128, .f32⟩
  | 65 => ⟨S800000x128, .f32⟩
  | 66 => ⟨S800000x128, .f32⟩
  | 67 => ⟨S800000x128, .f32⟩
  | 68 => ⟨S_, .f32⟩
  | 69 => ⟨S800000x128, .f32⟩
  | 70 => ⟨S800000x128, .f32⟩
  | 71 => ⟨S_, .f32⟩
  | 72 => ⟨S800000x128, .f32⟩
  | 73 => ⟨S800000x128, .f32⟩
  | 74 => ⟨S800000x128, .f32⟩
  | 75 => ⟨S128x128, .f32⟩
  | 76 => ⟨S800000x128, .f32⟩
  | 77 => ⟨S1x128, .f32⟩
  | 78 => ⟨S800000x128, .f32⟩
  | 79 => ⟨S800000x128, .f32⟩
  | 80 => ⟨S800000x128, .f32⟩
  | 81 => ⟨S800000x128, .f32⟩
  | 82 => ⟨S_, .f32⟩
  | 83 => ⟨S800000x128, .f32⟩
  | 84 => ⟨S800000x128, .f32⟩
  | 85 => ⟨S_, .f32⟩
  | 86 => ⟨S800000x128, .f32⟩
  | 87 => ⟨S800000x128, .f32⟩
  | 88 => ⟨S800000x128, .f32⟩
  | 89 => ⟨S128x1, .f32⟩
  | 90 => ⟨S800000x1, .f32⟩
  | 91 => ⟨S1x1, .f32⟩
  | 92 => ⟨S800000x1, .f32⟩
  | 93 => ⟨S800000x1, .f32⟩
  | 94 => ⟨S800000x1, .f32⟩
  | 95 => ⟨S800000x1, .f32⟩
  | 96 => ⟨S_, .f32⟩
  | 97 => ⟨S800000x1, .f32⟩
  | 98 => ⟨S800000x1, .f32⟩
  | 99 => ⟨S_, .f32⟩
  | 100 => ⟨S800000x1, .f32⟩
  | 101 => ⟨S800000x1, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x256, .f32⟩
  | 109 => ⟨S256x128, .f32⟩
  | 110 => ⟨S50000x128, .f32⟩
  | 111 => ⟨S1x128, .f32⟩
  | 112 => ⟨S50000x128, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S128x128, .f32⟩
  | 124 => ⟨S50000x128, .f32⟩
  | 125 => ⟨S1x128, .f32⟩
  | 126 => ⟨S50000x128, .f32⟩
  | 127 => ⟨S50000x128, .f32⟩
  | _ => ⟨S50000x3, .f32⟩

abbrev hbmTy0_1 (i : Nat) : BufTy := match i % 128 with
  | 0 => ⟨S50000x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_7 : Ref sig .tc := ⟨.hbm, 96, rfl⟩
abbrev main_v57 : Ref sig .tc := ⟨.hbm, 97, rfl⟩
abbrev main_v58 : Ref sig .tc := ⟨.hbm, 98, rfl⟩
abbrev main_cst_8 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_9 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_call2_v5 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x16_S800000x273_d1 : Shape.Concatenates [S800000x128, S800000x128, S800000x1, S800000x16] S800000x273 1
  transposes_S128x273_S273x128_1_0 : S128x273.Transposes [1, 0] S273x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x273_S273x128_S800000x128_1_0_0_1_n_n_wf : DotDims.WF S800000x273 S273x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x273_S273x128_S800000x128_1_0_0_1_n_n : DotDims S800000x273 S273x128 S800000x128 where
  lhsContracting := [1]
  rhsContracting := [0]
  lhsNonContracting := [0]
  rhsNonContracting := [1]
  lhsBatch := []
  rhsBatch := []
  wf := dot_S800000x273_S273x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Layer.lean ====
/-
  One message-passing layer, row by row, over the extended reals.

  For an edge e with endpoints (i, j) the message is m = s2 · σ(s2 · wa + ba), where
  s1 = silu(W1 · [h_i, h_j, r, a] + b1), s2 = silu(W2 · s1 + b2), silu(x) = x · σ(x) and σ(x) = 1 / (1 + e^(-x)).
  For a node with feature row h and aggregated message row ms the update is h + W4 · silu(W3 · [h, ms] + b3) + b4.
  Every weight matrix is stored output-major: entry (n, k) multiplies input coordinate k for output n.

  Each result row depends on the same row of the row-indexed operands only; the whole-array functions below
  are these row functions applied at every row, for any number of rows, so a block of rows of the result is
  the same function of the corresponding block of rows of the operands.
-/
import Idealize.ShloMosaic.Lib.ValueIdx
import Idealize.ShloMosaic.PureOps.Ideal

noncomputable section

open scoped BigOperators

namespace Cert.Layer

open Idealize.ShloMosaic Idealize.ShloMosaic.ValueIdx

/-- `silu x = x · σ(x)`. -/
def silu (x : EReal) : EReal := x * Ideal.logistic x

/-- One output of a dense layer: the input row against row `n` of the weights, plus the bias at `n`. -/
def lin {K N : Nat} (v : Fin K → EReal) (W : Fin N → Fin K → EReal) (b : Fin N → EReal) (n : Fin N) : EReal :=
  (∑ k : Fin K, v k * W n k) + b n

/-- The edge network's input row: the two endpoint feature rows, then the 17 auxiliary coordinates. -/
def edgeIn (hr hc : Fin 128 → EReal) (aux : Fin 17 → EReal) (k : Fin 273) : EReal :=
  if h : k.val < 128 then hr ⟨k.val, h⟩
  else if h2 : k.val < 256 then hc ⟨k.val - 128, by omega⟩
  else aux ⟨k.val - 256, by have := k.isLt; omega⟩

/-- The auxiliary coordinates: the distance first, then the 16 edge attributes. -/
def auxIn (rad : EReal) (ea : Fin 16 → EReal) (k : Fin 17) : EReal :=
  if _h : k.val < 1 then rad else ea ⟨k.val - 1, by have := k.isLt; omega⟩

/-- The first hidden row of the edge network. -/
def edgeHid1 (ein : Fin 273 → EReal) (We1 : Fin 128 → Fin 273 → EReal) (be1 : Fin 128 → EReal) (n : Fin 128) : EReal :=
  silu (lin ein We1 be1 n)

/-- The second hidden row of the edge network. -/
def edgeHid2 (ein : Fin 273 → EReal) (We1 : Fin 128 → Fin 273 → EReal) (be1 : Fin 128 → EReal)
    (We2 : Fin 128 → Fin 128 → EReal) (be2 : Fin 128 → EReal) (n : Fin 128) : EReal :=
  silu (lin (edgeHid1 ein We1 be1) We2 be2 n)

/-- The attention gate of a hidden row: `σ(s · wa + ba)`. -/
def gate (s : Fin 128 → EReal) (Wa : Fin 128 → EReal) (ba : EReal) : EReal :=
  Ideal.logistic ((∑ k : Fin 128, s k * Wa k) + ba)

/-- The message row of one edge. -/
def edgeRow (ein : Fin 273 → EReal) (We1 : Fin 128 → Fin 273 → EReal) (be1 : Fin 128 → EReal)
    (We2 : Fin 128 → Fin 128 → EReal) (be2 : Fin 128 → EReal) (Wa : Fin 128 → EReal) (ba : EReal) (j : Fin 128) : EReal :=
  edgeHid2 ein We1 be1 We2 be2 j * gate (edgeHid2 ein We1 be1 We2 be2) Wa ba

/-- The node network's input row: the node's features, then its aggregated messages. -/
def nodeIn (h ms : Fin 128 → EReal) (k : Fin 256) : EReal :=
  if hk : k.val < 128 then h ⟨k.val, hk⟩ else ms ⟨k.val - 128, by have := k.isLt; omega⟩

/-- The node network's hidden row. -/
def nodeHid (h ms : Fin 128 → EReal) (Wh1 : Fin 128 → Fin 256 → EReal) (bh1 : Fin 128 → EReal) (n : Fin 128) : EReal :=
  silu (lin (nodeIn h ms) Wh1 bh1 n)

/-- The updated feature row of one node. -/
def nodeRow (h ms : Fin 128 → EReal) (Wh1 : Fin 128 → Fin 256 → EReal) (bh1 : Fin 128 → EReal)
    (Wh2 : Fin 128 → Fin 128 → EReal) (bh2 : Fin 128 → EReal) (j : Fin 128) : EReal :=
  h j + lin (nodeHid h ms Wh1 bh1) Wh2 bh2 j

/-! ## Whole arrays, any number of rows -/

/-- An `R × C` array of extended reals. -/
abbrev Mat (R C : Nat) : Type := (⟨2, ![R, C]⟩ : Shape).Idx → EReal
/-- A length-`C` array of extended reals. -/
abbrev Arr (C : Nat) : Type := (⟨1, ![C]⟩ : Shape).Idx → EReal

/-- Row `r` of a matrix. -/
def rowOf {R C : Nat} (A : Mat R C) (r : Fin R) : Fin C → EReal := fun k => A (ix2 r k)
/-- A rank-one array as a function of its coordinate. -/
def vecOf {C : Nat} (b : Arr C) : Fin C → EReal := fun k => b (ix1 k)

/-- The auxiliary array: column 0 the distance, columns 1 to 16 the edge attributes. -/
def auxArr {R : Nat} (rad : Mat R 1) (ea : Mat R 16) : Mat R 17 :=
  fun i => auxIn (rad (ix2 (i 0) (0 : Fin 1))) (rowOf ea (i 0)) (i 1)

/-- The messages of `R` edges. -/
def edgeArr {R : Nat} (hr hc : Mat R 128) (aux : Mat R 17) (We1 : Mat 128 273) (be1 : Arr 128) (We2 : Mat 128 128)
    (be2 : Arr 128) (Wa : Mat 1 128) (ba : Arr 1) : Mat R 128 :=
  fun i => edgeRow (edgeIn (rowOf hr (i 0)) (rowOf hc (i 0)) (rowOf aux (i 0))) (rowOf We1) (vecOf be1) (rowOf We2) (vecOf be2)
    (rowOf Wa (0 : Fin 1)) (ba (ix1 (0 : Fin 1))) (i 1)

/-- The updated features of `R` nodes. -/
def nodeArr {R : Nat} (h ms : Mat R 128) (Wh1 : Mat 128 256) (bh1 : Arr 128) (Wh2 : Mat 128 128) (bh2 : Arr 128) : Mat R 128 :=
  fun i => nodeRow (rowOf h (i 0)) (rowOf ms (i 0)) (rowOf Wh1) (vecOf bh1) (rowOf Wh2) (vecOf bh2) (i 1)

/-- An edge's message depends on its own rows of the row-indexed operands only. -/
theorem edgeArr_row {R R' : Nat} (hr hc : Mat R 128) (aux : Mat R 17) (hr' hc' : Mat R' 128) (aux' : Mat R' 17)
    (We1 : Mat 128 273) (be1 : Arr 128) (We2 : Mat 128 128) (be2 : Arr 128) (Wa : Mat 1 128) (ba : Arr 1)
    (p : Fin R) (p' : Fin R') (h1 : ∀ k, hr (ix2 p k) = hr' (ix2 p' k)) (h2 : ∀ k, hc (ix2 p k) = hc' (ix2 p' k))
    (h3 : ∀ k, aux (ix2 p k) = aux' (ix2 p' k)) (j : Fin 128) :
    edgeArr hr hc aux We1 be1 We2 be2 Wa ba (ix2 p j) = edgeArr hr' hc' aux' We1 be1 We2 be2 Wa ba (ix2 p' j) := by
  have e1 : rowOf hr p = rowOf hr' p' := funext h1
  have e2 : rowOf hc p = rowOf hc' p' := funext h2
  have e3 : rowOf aux p = rowOf aux' p' := funext h3
  show edgeRow (edgeIn (rowOf hr p) (rowOf hc p) (rowOf aux p)) _ _ _ _ _ _ j
    = edgeRow (edgeIn (rowOf hr' p') (rowOf hc' p') (rowOf aux' p')) _ _ _ _ _ _ j
  rw [e1, e2, e3]

/-- A node's update depends on its own rows of the row-indexed operands only. -/
theorem nodeArr_row {R R' : Nat} (h ms : Mat R 128) (h' ms' : Mat R' 128)
    (Wh1 : Mat 128 256) (bh1 : Arr 128) (Wh2 : Mat 128 128) (bh2 : Arr 128)
    (p : Fin R) (p' : Fin R') (h1 : ∀ k, h (ix2 p k) = h' (ix2 p' k)) (h2 : ∀ k, ms (ix2 p k) = ms' (ix2 p' k)) (j : Fin 128) :
    nodeArr h ms Wh1 bh1 Wh2 bh2 (ix2 p j) = nodeArr h' ms' Wh1 bh1 Wh2 bh2 (ix2 p' j) := by
  have e1 : rowOf h p = rowOf h' p' := funext h1
  have e2 : rowOf ms p = rowOf ms' p' := funext h2
  show nodeRow (rowOf h p) (rowOf ms p) _ _ _ _ j = nodeRow (rowOf h' p') (rowOf ms' p') _ _ _ _ j
  rw [e1, e2]

end Cert.Layer

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.EdgeBlock.lean ====
/-
  The edge stage's body on one block of 4000 edges.

  The body joins the two endpoint feature blocks and the auxiliary block along the columns, multiplies by the
  transposed first weight matrix, adds the bias row and applies silu; does the same with the second weight
  matrix; forms the gate σ(s2 · wa + ba) per row and scales the second hidden block by it. The narrowing to
  the 16-bit format is the identity on extended reals and a matrix product into a zero accumulator is the plain
  sum of products, so the block the body stores is the layer's message function at 4000 rows.
-/
import proofs.«176786_j15693810499839_1_alg».proof.Proof.Gen.KernelIdeal.Skeleton
import proofs.«176786_j15693810499839_1_alg».proof.Proof.Layer
import proofs.«176786_j15693810499839_1_alg».proof.Proof.LibPlainDot
import Idealize.ShloMosaic.Lib.ValueLayout
import Idealize.ShloMosaic.Lib.Pipeline.Value

noncomputable section

open scoped BigOperators

namespace Cert.EdgeBlock

open Idealize.ShloMosaic Idealize.ShloMosaic.ValueIdx Cert.KernelIdeal Cert.KernelIdeal.Gen Cert.Layer

/-- The column join of the two endpoint blocks and the auxiliary block, read at row p and column k, is the edge
    network's input row of row p at k. -/
private theorem join_apply (x0 x1 : Vec Ideal S4000x128 .f32) (x2 : Vec Ideal S4000x17 .f32) (p : Fin 4000) (k : Fin 273) :
    concatenate S4000x273 1 [⟨S4000x128, x0⟩, ⟨S4000x128, x1⟩, ⟨S4000x17, x2⟩]
        concatenates_S4000x128_S4000x128_S4000x17_S4000x273_d1 (ix2 p k)
      = edgeIn (rowOf x0 p) (rowOf x1 p) (rowOf x2 p) k := by
  unfold edgeIn
  by_cases h1 : k.val < 128
  · rw [dif_pos h1]
    refine concatenate_apply_piece (1 : Fin S4000x273.rank) _ _ (ix2 p k) 0 (by show 0 < 3; omega) S4000x128 x0 rfl rfl 0 rfl
      (ix2 p ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 256
    · rw [dif_pos h2]
      refine concatenate_apply_piece (1 : Fin S4000x273.rank) _ _ (ix2 p k) 1 (by show 1 < 3; omega) S4000x128 x1 rfl rfl 128 rfl
        (ix2 p ⟨k.val - 128, by omega⟩) (fun b hb => ?_) ?_
      · match b with
        | ⟨0, _⟩ => rfl
        | ⟨1, _⟩ => exact absurd rfl hb
      · show 128 + (k.val - 128) = k.val
        omega
    · rw [dif_neg h2]
      refine concatenate_apply_piece (1 : Fin S4000x273.rank) _ _ (ix2 p k) 2 (by show 2 < 3; omega) S4000x17 x2 rfl rfl 256 rfl
        (ix2 p ⟨k.val - 256, by have := k.isLt; omega⟩) (fun b hb => ?_) ?_
      · match b with
        | ⟨0, _⟩ => rfl
        | ⟨1, _⟩ => exact absurd rfl hb
      · show 256 + (k.val - 256) = k.val
        omega

/-- The product with the transposed first weight block plus the bias row, at row p and output n: the input row
    against row n of the weights, plus the bias at n. -/
private theorem affine273_apply (A : FVec Ideal S4000x273 .bf16) (W : Vec Ideal S128x273 .f32) (b : Vec Ideal S128 .f32)
    (p : Fin 4000) (n : Fin 128) :
    Cert.PlainDot.affine A (transpose S273x128 [1, 0] (truncf .bf16 W bitsLt_bf16_f32 : FVec Ideal S128x273 .bf16) transposes_S128x273_p1_0_S273x128)
        (shapeCast S1x128 b shapeCasts_S128_S1x128) (ix2 p n)
      = lin (fun k => A (ix2 p k)) (rowOf W) (vecOf b) n := by
  show (∑ k : Fin 273, A (ix2 p k)
        * transpose S273x128 [1, 0] (truncf .bf16 W bitsLt_bf16_f32 : FVec Ideal S128x273 .bf16) transposes_S128x273_p1_0_S273x128 (ix2 k n))
      + shapeCast S1x128 b shapeCasts_S128_S1x128 (ix2 (0 : Fin 1) n)
    = (∑ k : Fin 273, A (ix2 p k) * W (ix2 n k)) + b (ix1 n)
  refine congrArg₂ (· + ·) (Finset.sum_congr rfl fun k _ => ?_) (shapeCast_a_1a_apply b _ 0 n)
  exact congrArg (A (ix2 p k) * ·) (transpose_ix2_apply (truncf .bf16 W bitsLt_bf16_f32 : FVec Ideal S128x273 .bf16) _ k n)

/-- The same for the second weight block. -/
private theorem affine128_apply (A : FVec Ideal S4000x128 .bf16) (W : Vec Ideal S128x128 .f32) (b : Vec Ideal S128 .f32)
    (p : Fin 4000) (n : Fin 128) :
    Cert.PlainDot.affine A (transpose S128x128 [1, 0] (truncf .bf16 W bitsLt_bf16_f32 : FVec Ideal S128x128 .bf16) transposes_S128x128_p1_0_S128x128)
        (shapeCast S1x128 b shapeCasts_S128_S1x128) (ix2 p n)
      = lin (fun k => A (ix2 p k)) (rowOf W) (vecOf b) n := by
  show (∑ k : Fin 128, A (ix2 p k)
        * transpose S128x128 [1, 0] (truncf .bf16 W bitsLt_bf16_f32 : FVec Ideal S128x128 .bf16) transposes_S128x128_p1_0_S128x128 (ix2 k n))
      + shapeCast S1x128 b shapeCasts_S128_S1x128 (ix2 (0 : Fin 1) n)
    = (∑ k : Fin 128, A (ix2 p k) * W (ix2 n k)) + b (ix1 n)
  refine congrArg₂ (· + ·) (Finset.sum_congr rfl fun k _ => ?_) (shapeCast_a_1a_apply b _ 0 n)
  exact congrArg (A (ix2 p k) * ·) (transpose_ix2_apply (truncf .bf16 W bitsLt_bf16_f32 : FVec Ideal S128x128 .bf16) _ k n)

/-- The product with the transposed gate weights plus the gate bias, at row p: the row against the gate weights,
    plus the gate bias. -/
private theorem affineGate_apply (A : FVec Ideal S4000x128 .bf16) (w : Vec Ideal S1x128 .f32) (b : Vec Ideal S1 .f32)
    (p : Fin 4000) :
    Cert.PlainDot.affine A (transpose S128x1 [1, 0] (truncf .bf16 w bitsLt_bf16_f32 : FVec Ideal S1x128 .bf16) transposes_S1x128_p1_0_S128x1)
        (shapeCast S1x1 b shapeCasts_S1_S1x1) (ix2 p (0 : Fin 1))
      = (∑ k : Fin 128, A (ix2 p k) * rowOf w (0 : Fin 1) k) + b (ix1 (0 : Fin 1)) := by
  show (∑ k : Fin 128, A (ix2 p k)
        * transpose S128x1 [1, 0] (truncf .bf16 w bitsLt_bf16_f32 : FVec Ideal S1x128 .bf16) transposes_S1x128_p1_0_S128x1 (ix2 k (0 : Fin 1)))
      + shapeCast S1x1 b shapeCasts_S1_S1x1 (ix2 (0 : Fin 1) (0 : Fin 1))
    = (∑ k : Fin 128, A (ix2 p k) * w (ix2 (0 : Fin 1) k)) + b (ix1 (0 : Fin 1))
  refine congrArg₂ (· + ·) (Finset.sum_congr rfl fun k _ => ?_) (shapeCast_a_1a_apply b _ 0 0)
  exact congrArg (A (ix2 p k) * ·) (transpose_ix2_apply (truncf .bf16 w bitsLt_bf16_f32 : FVec Ideal S1x128 .bf16) _ k 0)

/-- The value the edge body stores, as a function of the nine blocks it loads, is the message function. -/
theorem edge_block (x0 x1 : Vec Ideal S4000x128 .f32) (x2 : Vec Ideal S4000x17 .f32) (x3 : Vec Ideal S128x273 .f32)
    (x4 : Vec Ideal S128 .f32) (x5 : Vec Ideal S128x128 .f32) (x6 : Vec Ideal S128 .f32) (x7 : Vec Ideal S1x128 .f32)
    (x8 : Vec Ideal S1 .f32) :
    k0_pay1 (F := Ideal) x0 x1 x2 x3 x4 x5 x6 x7 x8 = edgeArr (R := 4000) x0 x1 x2 x3 x4 x5 x6 x7 x8 := by
  have hd1 : dot_S4000x273_S273x128_S4000x128_1_0_0_1_n_n = DotDims.plain 4000 273 128 := rfl
  have hd2 : dot_S4000x128_S128x128_S4000x128_1_0_0_1_n_n = DotDims.plain 4000 128 128 := rfl
  have hd3 : dot_S4000x128_S128x1_S4000x1_1_0_0_1_n_n = DotDims.plain 4000 128 1 := rfl
  unfold k0_pay1
  dsimp only
  rw [shapeCast_self, shapeCast_self, shapeCast_self, hd1, hd2, hd3]
  rw [Cert.PlainDot.matmul_add_row_eq, Cert.PlainDot.matmul_add_row_eq, Cert.PlainDot.matmul_add_row_eq]
  -- name the stages, innermost first: the joined input C, the pre-activations A1, A2, A3, the hidden blocks H1, H2
  generalize hC : (truncf .bf16 (concatenate S4000x273 1 [⟨S4000x128, x0⟩, ⟨S4000x128, x1⟩, ⟨S4000x17, x2⟩]
      concatenates_S4000x128_S4000x128_S4000x17_S4000x273_d1) bitsLt_bf16_f32 : FVec Ideal S4000x273 .bf16) = C
  generalize hA1 : Cert.PlainDot.affine C
      (transpose S273x128 [1, 0] (truncf .bf16 x3 bitsLt_bf16_f32 : FVec Ideal S128x273 .bf16) transposes_S128x273_p1_0_S273x128)
      (shapeCast S1x128 x4 shapeCasts_S128_S1x128) = A1
  generalize hH1 : (truncf .bf16 (mulf A1 (logistic A1)) bitsLt_bf16_f32 : FVec Ideal S4000x128 .bf16) = H1
  generalize hA2 : Cert.PlainDot.affine H1
      (transpose S128x128 [1, 0] (truncf .bf16 x5 bitsLt_bf16_f32 : FVec Ideal S128x128 .bf16) transposes_S128x128_p1_0_S128x128)
      (shapeCast S1x128 x6 shapeCasts_S128_S1x128) = A2
  generalize hH2 : (truncf .bf16 (mulf A2 (logistic A2)) bitsLt_bf16_f32 : FVec Ideal S4000x128 .bf16) = H2
  generalize hA3 : Cert.PlainDot.affine H2
      (transpose S128x1 [1, 0] (truncf .bf16 x7 bitsLt_bf16_f32 : FVec Ideal S1x128 .bf16) transposes_S1x128_p1_0_S128x1)
      (shapeCast S1x1 x8 shapeCasts_S1_S1x1) = A3
  funext i
  obtain ⟨p, j, rfl⟩ : ∃ (p : Fin 4000) (j : Fin 128), i = ix2 p j := ⟨i 0, i 1, eq_ix2 i⟩
  show _
    = edgeRow (edgeIn (rowOf x0 p) (rowOf x1 p) (rowOf x2 p)) (rowOf x3) (vecOf x4) (rowOf x5) (vecOf x6)
        (rowOf x7 (0 : Fin 1)) (x8 (ix1 (0 : Fin 1))) j
  -- row p of the joined input is the edge network's input row
  have eC : (fun k => C (ix2 p k)) = edgeIn (rowOf x0 p) (rowOf x1 p) (rowOf x2 p) :=
    funext fun k => by rw [← hC]; exact join_apply x0 x1 x2 p k
  generalize edgeIn (rowOf x0 p) (rowOf x1 p) (rowOf x2 p) = ein at eC ⊢
  -- first layer
  have e1 : ∀ n : Fin 128, A1 (ix2 p n) = lin ein (rowOf x3) (vecOf x4) n := fun n => by
    rw [← hA1, affine273_apply, eC]
  have eH1 : (fun k => H1 (ix2 p k)) = edgeHid1 ein (rowOf x3) (vecOf x4) := funext fun k => by
    rw [← hH1]
    show A1 (ix2 p k) * Ideal.logistic (A1 (ix2 p k)) = silu (lin ein (rowOf x3) (vecOf x4) k)
    rw [e1 k]
    rfl
  -- second layer
  have e2 : ∀ n : Fin 128, A2 (ix2 p n) = lin (edgeHid1 ein (rowOf x3) (vecOf x4)) (rowOf x5) (vecOf x6) n := fun n => by
    rw [← hA2, affine128_apply, eH1]
  have eS2 : ∀ n : Fin 128, A2 (ix2 p n) * Ideal.logistic (A2 (ix2 p n))
      = edgeHid2 ein (rowOf x3) (vecOf x4) (rowOf x5) (vecOf x6) n := fun n => by
    rw [e2 n]
    rfl
  have eH2 : ∀ k : Fin 128, H2 (ix2 p k) = edgeHid2 ein (rowOf x3) (vecOf x4) (rowOf x5) (vecOf x6) k := fun k => by
    rw [← hH2]
    exact eS2 k
  -- the gate
  have e3 : Ideal.logistic (A3 (ix2 p (0 : Fin 1)))
      = gate (edgeHid2 ein (rowOf x3) (vecOf x4) (rowOf x5) (vecOf x6)) (rowOf x7 (0 : Fin 1)) (x8 (ix1 (0 : Fin 1))) := by
    rw [← hA3, affineGate_apply]
    unfold gate
    refine congrArg Ideal.logistic (congrArg (· + x8 (ix1 (0 : Fin 1))) (Finset.sum_congr rfl fun k _ => ?_))
    rw [eH2 k]
  -- the gate column broadcast over the 128 columns reads, at (p, j), the column at (p, 0)
  have eB : broadcastTo S4000x128 (logistic A3 : FVec Ideal S4000x1 .f32) broadcasts_S4000x1_S4000x128 (ix2 p j)
      = Ideal.logistic (A3 (ix2 p (0 : Fin 1))) :=
    broadcastTo_apply (logistic A3 : FVec Ideal S4000x1 .f32) broadcasts_S4000x1_S4000x128 (ix2 p j) (ix2 p (0 : Fin 1))
      fun a => match a with
        | ⟨0, _⟩ => rfl
        | ⟨1, _⟩ => rfl
  show (A2 (ix2 p j) * Ideal.logistic (A2 (ix2 p j)))
      * broadcastTo S4000x128 (logistic A3 : FVec Ideal S4000x1 .f32) broadcasts_S4000x1_S4000x128 (ix2 p j)
    = edgeHid2 ein (rowOf x3) (vecOf x4) (rowOf x5) (vecOf x6) j
      * gate (edgeHid2 ein (rowOf x3) (vecOf x4) (rowOf x5) (vecOf x6)) (rowOf x7 (0 : Fin 1)) (x8 (ix1 (0 : Fin 1)))
  rw [eB, e3, eS2 j]

end Cert.EdgeBlock

end
-- ==== Proof.EdgeRegion.lean ====
/-
  The edge stage over all 800000 edges.

  Grid point t of 200 stages rows 4000·t … 4000·t + 3999 of the three row-indexed operands and the six weight
  and bias arrays whole, runs the body, and writes the block back to the same rows of the message array. The
  blocks tile the array, and a message row depends on its own operand rows only, so after the last point the
  message array is the layer's message function of the whole operand arrays as the stage found them.
-/
import proofs.«176786_j15693810499839_1_alg».proof.Proof.Gen.KernelIdeal.Frame
import proofs.«176786_j15693810499839_1_alg».proof.Proof.EdgeBlock

noncomputable section

open scoped BigOperators

set_option maxRecDepth 16384

namespace Cert.EdgeRegion

open Idealize.ShloMosaic Idealize.ShloMosaic.TcCoe Idealize.ShloMosaic.ValueIdx Idealize.SL.Sem Cert.KernelIdeal Cert.KernelIdeal.Gen Cert.Layer

variable (V : (c : Dev nD) → (b : Ref sig .tc) → Buf (Elt Ideal) ((c : Thread nD τ).loc b))

/-- The zero offsets of a rank-two block, as a constant function. -/
private theorem zero2 : (![0, 0] : Fin 2 → Nat) = fun _ => 0 := funext fun a => by fin_cases a <;> rfl
/-- The zero offset of a rank-one block, as a constant function. -/
private theorem zero1 : (![0] : Fin 1 → Nat) = fun _ => 0 := funext fun a => by fin_cases a <;> rfl

/-- Point t's blocks of the row-indexed arrays are block row t; the weight arrays' blocks are at index 0. -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Point t's block of the first endpoint features is rows 4000·t … 4000·t + 3999 of that array. -/
private theorem block_rows_hr (c : Dev nD) (t : Fin cfg0.N) (p : Fin 4000) (k : Fin 128) (h : 4000 * t.val + p.val < 800000) :
    (iblk0 V c 0 t : S4000x128.Idx → EReal) (ix2 p k) = (V c main_v10 : S800000x128.Idx → EReal) (ix2 ⟨4000 * t.val + p.val, h⟩ k) := by
  have e0 := (block_index t).1
  have e1 := (block_index t).2.1
  unfold iblk0
  rw [View.read_apply]
  show V c main_v10 (((cfg0.win 0).blk t).view.emb (ix2 p k)) = _
  congr 1
  funext a; apply Fin.ext
  match a with
  | ⟨0, _⟩ => show win0_0.index t (0 : Fin 2) * 4000 + 1 * p.val = 4000 * t.val + p.val; omega
  | ⟨1, _⟩ => show win0_0.index t (1 : Fin 2) * 128 + 1 * k.val = k.val; omega

/-- Point t's block of the second endpoint features is rows 4000·t … 4000·t + 3999 of that array. -/
private theorem block_rows_hc (c : Dev nD) (t : Fin cfg0.N) (p : Fin 4000) (k : Fin 128) (h : 4000 * t.val + p.val < 800000) :
    (iblk0 V c 1 t : S4000x128.Idx → EReal) (ix2 p k) = (V c main_v17 : S800000x128.Idx → EReal) (ix2 ⟨4000 * t.val + p.val, h⟩ k) := by
  have e0 := (block_index t).2.2.1
  have e1 := (block_index t).2.2.2.1
  unfold iblk0
  rw [View.read_apply]
  show V c main_v17 (((cfg0.win 1).blk t).view.emb (ix2 p k)) = _
  congr 1
  funext a; apply Fin.ext
  match a with
  | ⟨0, _⟩ => show win0_1.index t (0 : Fin 2) * 4000 + 1 * p.val = 4000 * t.val + p.val; omega
  | ⟨1, _⟩ => show win0_1.index t (1 : Fin 2) * 128 + 1 * k.val = k.val; omega

/-- Point t's block of the auxiliary coordinates is rows 4000·t … 4000·t + 3999 of that array. -/
private theorem block_rows_aux (c : Dev nD) (t : Fin cfg0.N) (p : Fin 4000) (k : Fin 17) (h : 4000 * t.val + p.val < 800000) :
    (iblk0 V c 2 t : S4000x17.Idx → EReal) (ix2 p k) = (V c main_v37 : S800000x17.Idx → EReal) (ix2 ⟨4000 * t.val + p.val, h⟩ k) := by
  have e0 := (block_index t).2.2.2.2.1
  have e1 := (block_index t).2.2.2.2.2.1
  unfold iblk0
  rw [View.read_apply]
  show V c main_v37 (((cfg0.win 2).blk t).view.emb (ix2 p k)) = _
  congr 1
  funext a; apply Fin.ext
  match a with
  | ⟨0, _⟩ => show win0_2.index t (0 : Fin 2) * 4000 + 1 * p.val = 4000 * t.val + p.val; omega
  | ⟨1, _⟩ => show win0_2.index t (1 : Fin 2) * 17 + 1 * k.val = k.val; omega

/-- The first weight matrix is staged whole: its block at any point is the array. -/
private theorem block_We1 (c : Dev nD) (t : Fin cfg0.N) (p : Fin 128) (k : Fin 273) :
    (iblk0 V c 3 t : S128x273.Idx → EReal) (ix2 p k) = (V c main_arg3 : S128x273.Idx → EReal) (ix2 p k) := by
  have e0 := (block_index t).2.2.2.2.2.2.2.2.1
  have e1 := (block_index t).2.2.2.2.2.2.2.2.2.1
  unfold iblk0
  rw [View.read_apply]
  show V c main_arg3 (((cfg0.win 3).blk t).view.emb (ix2 p k)) = _
  congr 1
  funext a; apply Fin.ext
  match a with
  | ⟨0, _⟩ => show win0_3.index t (0 : Fin 2) * 128 + 1 * p.val = p.val; omega
  | ⟨1, _⟩ => show win0_3.index t (1 : Fin 2) * 273 + 1 * k.val = k.val; omega

/-- The first bias is staged whole: its block at any point is the array. -/
private theorem block_be1 (c : Dev nD) (t : Fin cfg0.N) (k : Fin 128) :
    (iblk0 V c 4 t : S128.Idx → EReal) (ix1 k) = (V c main_arg4 : S128.Idx → EReal) (ix1 k) := by
  have e0 := (block_index t).2.2.2.2.2.2.2.2.2.2.1
  unfold iblk0
  rw [View.read_apply]
  show V c main_arg4 (((cfg0.win 4).blk t).view.emb (ix1 k)) = _
  congr 1
  funext a; apply Fin.ext
  match a with
  | ⟨0, _⟩ => show win0_4.index t (0 : Fin 1) * 128 + 1 * k.val = k.val; omega

/-- The second weight matrix is staged whole: its block at any point is the array. -/
private theorem block_We2 (c : Dev nD) (t : Fin cfg0.N) (p : Fin 128) (k : Fin 128) :
    (iblk0 V c 5 t : S128x128.Idx → EReal) (ix2 p k) = (V c main_arg5 : S128x128.Idx → EReal) (ix2 p k) := by
  have e0 := (block_index t).2.2.2.2.2.2.2.2.2.2.2.1
  have e1 := (block_index t).2.2.2.2.2.2.2.2.2.2.2.2.1
  unfold iblk0
  rw [View.read_apply]
  show V c main_arg5 (((cfg0.win 5).blk t).view.emb (ix2 p k)) = _
  congr 1
  funext a; apply Fin.ext
  match a with
  | ⟨0, _⟩ => show win0_5.index t (0 : Fin 2) * 128 + 1 * p.val = p.val; omega
  | ⟨1, _⟩ => show win0_5.index t (1 : Fin 2) * 128 + 1 * k.val = k.val; omega

/-- The second bias is staged whole: its block at any point is the array. -/
private theorem block_be2 (c : Dev nD) (t : Fin cfg0.N) (k : Fin 128) :
    (iblk0 V c 6 t : S128.Idx → EReal) (ix1 k) = (V c main_arg6 : S128.Idx → EReal) (ix1 k) := by
  have e0 := (block_index t).2.2.2.2.2.2.2.2.2.2.2.2.2.1
  unfold iblk0
  rw [View.read_apply]
  show V c main_arg6 (((cfg0.win 6).blk t).view.emb (ix1 k)) = _
  congr 1
  funext a; apply Fin.ext
  match a with
  | ⟨0, _⟩ => show win0_6.index t (0 : Fin 1) * 128 + 1 * k.val = k.val; omega

/-- The gate's weight row is staged whole: its block at any point is the array. -/
private theorem block_Wa (c : Dev nD) (t : Fin cfg0.N) (p : Fin 1) (k : Fin 128) :
    (iblk0 V c 7 t : S1x128.Idx → EReal) (ix2 p k) = (V c main_arg11 : S1x128.Idx → EReal) (ix2 p k) := by
  have e0 := (block_index t).2.2.2.2.2.2.2.2.2.2.2.2.2.2.1
  have e1 := (block_index t).2.2.2.2.2.2.2.2.2.2.2.2.2.2.2.1
  unfold iblk0
  rw [View.read_apply]
  show V c main_arg11 (((cfg0.win 7).blk t).view.emb (ix2 p k)) = _
  congr 1
  funext a; apply Fin.ext
  match a with
  | ⟨0, _⟩ => show win0_7.index t (0 : Fin 2) * 1 + 1 * p.val = p.val; omega
  | ⟨1, _⟩ => show win0_7.index t (1 : Fin 2) * 128 + 1 * k.val = k.val; omega

/-- The gate's bias is staged whole: its block at any point is the array. -/
private theorem block_ba (c : Dev nD) (t : Fin cfg0.N) (k : Fin 1) :
    (iblk0 V c 8 t : S1.Idx → EReal) (ix1 k) = (V c main_arg12 : S1.Idx → EReal) (ix1 k) := by
  have e0 := (block_index t).2.2.2.2.2.2.2.2.2.2.2.2.2.2.2.2
  unfold iblk0
  rw [View.read_apply]
  show V c main_arg12 (((cfg0.win 8).blk t).view.emb (ix1 k)) = _
  congr 1
  funext a; apply Fin.ext
  match a with
  | ⟨0, _⟩ => show win0_8.index t (0 : Fin 1) * 1 + 1 * k.val = k.val; omega

/-- The staged first weight matrix, as a function, is the array. -/
private theorem block_We1_eq (c : Dev nD) (t : Fin cfg0.N) : (iblk0 V c 3 t : S128x273.Idx → EReal) = (V c main_arg3 : S128x273.Idx → EReal) := by
  funext i; obtain ⟨p, k, rfl⟩ : ∃ (p : Fin 128) (k : Fin 273), i = ix2 p k := ⟨i 0, i 1, eq_ix2 i⟩
  exact block_We1 V c t p k
/-- The staged first bias, as a function, is the array. -/
private theorem block_be1_eq (c : Dev nD) (t : Fin cfg0.N) : (iblk0 V c 4 t : S128.Idx → EReal) = (V c main_arg4 : S128.Idx → EReal) := by
  funext i; obtain ⟨k, rfl⟩ : ∃ (k : Fin 128), i = ix1 k := ⟨i 0, eq_ix1 i⟩
  exact block_be1 V c t k
/-- The staged second weight matrix, as a function, is the array. -/
private theorem block_We2_eq (c : Dev nD) (t : Fin cfg0.N) : (iblk0 V c 5 t : S128x128.Idx → EReal) = (V c main_arg5 : S128x128.Idx → EReal) := by
  funext i; obtain ⟨p, k, rfl⟩ : ∃ (p : Fin 128) (k : Fin 128), i = ix2 p k := ⟨i 0, i 1, eq_ix2 i⟩
  exact block_We2 V c t p k
/-- The staged second bias, as a function, is the array. -/
private theorem block_be2_eq (c : Dev nD) (t : Fin cfg0.N) : (iblk0 V c 6 t : S128.Idx → EReal) = (V c main_arg6 : S128.Idx → EReal) := by
  funext i; obtain ⟨k, rfl⟩ : ∃ (k : Fin 128), i = ix1 k := ⟨i 0, eq_ix1 i⟩
  exact block_be2 V c t k
/-- The staged gate weight row, as a function, is the array. -/
private theorem block_Wa_eq (c : Dev nD) (t : Fin cfg0.N) : (iblk0 V c 7 t : S1x128.Idx → EReal) = (V c main_arg11 : S1x128.Idx → EReal) := by
  funext i; obtain ⟨p, k, rfl⟩ : ∃ (p : Fin 1) (k : Fin 128), i = ix2 p k := ⟨i 0, i 1, eq_ix2 i⟩
  exact block_Wa V c t p k
/-- The staged gate bias, as a function, is the array. -/
private theorem block_ba_eq (c : Dev nD) (t : Fin cfg0.N) : (iblk0 V c 8 t : S1.Idx → EReal) = (V c main_arg12 : S1.Idx → EReal) := by
  funext i; obtain ⟨k, rfl⟩ : ∃ (k : Fin 1), i = ix1 k := ⟨i 0, eq_ix1 i⟩
  exact block_ba V c t k

/-- A message row is the same for equal weights and equal operand rows, whatever the arrays' heights. -/
private theorem edgeArr_rows_congr {R R' : Nat} (hr hc : Mat R 128) (aux : Mat R 17) (hr' hc' : Mat R' 128) (aux' : Mat R' 17)
    (We1 We1' : Mat 128 273) (be1 be1' : Arr 128) (We2 We2' : Mat 128 128) (be2 be2' : Arr 128) (Wa Wa' : Mat 1 128) (ba ba' : Arr 1)
    (w1 : We1 = We1') (w2 : be1 = be1') (w3 : We2 = We2') (w4 : be2 = be2') (w5 : Wa = Wa') (w6 : ba = ba')
    (p : Fin R) (p' : Fin R') (h1 : ∀ k, hr (ix2 p k) = hr' (ix2 p' k)) (h2 : ∀ k, hc (ix2 p k) = hc' (ix2 p' k))
    (h3 : ∀ k, aux (ix2 p k) = aux' (ix2 p' k)) (j : Fin 128) :
    edgeArr hr hc aux We1 be1 We2 be2 Wa ba (ix2 p j) = edgeArr hr' hc' aux' We1' be1' We2' be2' Wa' ba' (ix2 p' j) := by
  subst w1 w2 w3 w4 w5 w6
  exact edgeArr_row hr hc aux hr' hc' aux' We1 be1 We2 be2 Wa ba p p' h1 h2 h3 j

/-- Block t of the messages, computed from the staged blocks, is rows 4000·t … of the messages of the whole arrays. -/
private theorem block_value (c : Dev nD) (t : Fin cfg0.N) (p : Fin 4000) (j : Fin 128) (h : 4000 * t.val + p.val < 800000) :
    edgeArr (R := 4000) (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p j)
      = (edgeArr (R := 800000) (V c main_v10) (V c main_v17) (V c main_v37) (V c main_arg3) (V c main_arg4) (V c main_arg5)
          (V c main_arg6) (V c main_arg11) (V c main_arg12)) (ix2 ⟨4000 * t.val + p.val, h⟩ j) :=
  edgeArr_rows_congr _ _ _ _ _ _ _ _ _ _ _ _ _ _ _ _ _ _
    (block_We1_eq V c t) (block_be1_eq V c t) (block_We2_eq V c t) (block_be2_eq V c t) (block_Wa_eq V c t) (block_ba_eq V c t)
    p ⟨4000 * t.val + p.val, h⟩ (fun k => block_rows_hr V c t p k h) (fun k => block_rows_hc V c t p k h)
    (fun k => block_rows_aux V c t p k h) j

/-- Where an element of point t's message block sits in the message array: row 4000·t + its row, the same column. -/
private theorem block_position (t : Fin cfg0.N) (p : Fin 4000) (j : Fin 128) (h : 4000 * t.val + p.val < 800000) :
    (((cfg0.win 9).blk t).view.emb (ix2 p j : S4000x128.Idx) : S800000x128.Idx) = ix2 ⟨4000 * t.val + p.val, h⟩ j := by
  have e0 := (block_index t).2.2.2.2.2.2.1
  have e1 := (block_index t).2.2.2.2.2.2.2.1
  funext a; apply Fin.ext
  match a with
  | ⟨0, _⟩ => show win0_9.index t (0 : Fin 2) * 4000 + 1 * p.val = 4000 * t.val + p.val; omega
  | ⟨1, _⟩ => show win0_9.index t (1 : Fin 2) * 128 + 1 * j.val = j.val; omega

/-- What point t writes back is block t of the messages of the whole arrays. -/
private theorem flushed_block (c : Dev nD) (t : Fin cfg0.N) :
    (dat0 (F := Ideal) V c).flushed 9 t = ((cfg0.win 9).blk t).view.read (Elt Ideal) (edgeArr (R := 800000) (V c main_v10) (V c main_v17) (V c main_v37) (V c main_arg3) (V c main_arg4) (V c main_arg5)
          (V c main_arg6) (V c main_arg11) (V c main_arg12)) := by
  show (cfg0.win 9).cut (grid0.coords t) ((dat0 V c).after 9 t) = _
  rw [after0_9]
  unfold out0_9
  rw [View.canon_unit_zero zero2]
  simp only [View.ld_unit_zero (S := S4000x128) zero2, View.ld_unit_zero (S := S4000x17) zero2,
    View.ld_unit_zero (S := S128x273) zero2, View.ld_unit_zero (S := S128) zero1, View.ld_unit_zero (S := S128x128) zero2,
    View.ld_unit_zero (S := S1x128) zero2, View.ld_unit_zero (S := S1) zero1]
  rw [Cert.EdgeBlock.edge_block]
  funext y
  obtain ⟨p, j, rfl⟩ : ∃ (p : Fin 4000) (j : Fin 128), y = (ix2 p j : S4000x128.Idx) := ⟨y 0, y 1, eq_ix2 (n0 := 4000) (n1 := 128) y⟩
  have hN : cfg0.N = 200 := Gen.N_0
  have ht : t.val < 200 := by have := t.isLt; omega
  have h : 4000 * t.val + p.val < 800000 := by have := p.isLt; omega
  show edgeArr (R := 4000) (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p j)
      = (edgeArr (R := 800000) (V c main_v10) (V c main_v17) (V c main_v37) (V c main_arg3) (V c main_arg4) (V c main_arg5)
          (V c main_arg6) (V c main_arg11) (V c main_arg12)) (((cfg0.win 9).blk t).view.emb (ix2 p j : S4000x128.Idx))
  rw [block_position t p j h]
  exact block_value V c t p j h

/-- An index of the message array is in point t's block iff each coordinate is in the block's range on its axis. -/
private theorem mem_block (t : Fin cfg0.N) (i : S800000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v38).slice (win0_9.rect t)).set ↔ _
  rw [View.set_slice_whole, Rect.mem_set_unit]
  exact Iff.rfl

/-- The 200 blocks of 4000 rows tile the 800000 rows: row r is in the block of point r / 4000. -/
private theorem blocks_cover (i : S800000x128.Idx) :
    ∃ t : Fin cfg0.N, (cfg0.win 9).flush t = true ∧ i ∈ ((cfg0.win 9).blk t).view.set := by
  have hN : cfg0.N = 200 := Gen.N_0
  have hi0 : (i 0).val < 800000 := idx2_lt0 i
  have hi1 : (i 1).val < 128 := idx2_lt1 i
  have hq : (i 0).val / 4000 < cfg0.N := by rw [hN]; omega
  refine ⟨⟨(i 0).val / 4000, hq⟩, flush0_9 _, ?_⟩
  have e0 := (block_index ⟨(i 0).val / 4000, hq⟩).2.2.2.2.2.2.1
  have e1 := (block_index ⟨(i 0).val / 4000, hq⟩).2.2.2.2.2.2.2.1
  rw [mem_block]
  intro a
  match a with
  | ⟨0, _⟩ =>
    show win0_9.index ⟨(i 0).val / 4000, hq⟩ (0 : Fin 2) * 4000 ≤ (i 0).val ∧ (i 0).val < win0_9.index ⟨(i 0).val / 4000, hq⟩ (0 : Fin 2) * 4000 + 4000
    rw [e0]; show (i 0).val / 4000 * 4000 ≤ (i 0).val ∧ (i 0).val < (i 0).val / 4000 * 4000 + 4000; omega
  | ⟨1, _⟩ =>
    show win0_9.index ⟨(i 0).val / 4000, hq⟩ (1 : Fin 2) * 128 ≤ (i 1).val ∧ (i 1).val < win0_9.index ⟨(i 0).val / 4000, hq⟩ (1 : Fin 2) * 128 + 128
    rw [e1]; omega

/-- The message array when the edge stage ends, from the arrays it was entered with. -/
theorem edge_region (c : Dev nD) :
    (dat0 (F := Ideal) V c).arrAt 9 cfg0.N
      = edgeArr (R := 800000) (V c main_v10) (V c main_v17) (V c main_v37) (V c main_arg3) (V c main_arg4) (V c main_arg5)
          (V c main_arg6) (V c main_arg11) (V c main_arg12) := by
  exact (dat0 (F := Ideal) V c).arrAt_eq_of_cover 9 _ (fun t _ => flushed_block V c t) blocks_cover

end Cert.EdgeRegion

end
-- ==== Proof.NodeBlock.lean ====
/-
  The node stage's body on one block of 5000 nodes.

  The body joins the feature block and the aggregated-message block along the columns, multiplies by the
  transposed third weight matrix, adds the bias row, applies silu, multiplies by the transposed fourth weight
  matrix, adds its bias row and adds the feature block back. Over the extended reals this is the layer's
  node update at 5000 rows.
-/
import proofs.«176786_j15693810499839_1_alg».proof.Proof.Gen.KernelIdeal.Skeleton
import proofs.«176786_j15693810499839_1_alg».proof.Proof.Layer
import proofs.«176786_j15693810499839_1_alg».proof.Proof.LibPlainDot
import Idealize.ShloMosaic.Lib.ValueLayout
import Idealize.ShloMosaic.Lib.Pipeline.Value

noncomputable section

open scoped BigOperators

namespace Cert.NodeBlock

open Idealize.ShloMosaic Idealize.ShloMosaic.ValueIdx Cert.KernelIdeal Cert.KernelIdeal.Gen Cert.Layer

/-- The column join of the feature block and the message block, read at row `p` and column `k`, is the node
    network's input row of that node: the features for `k < 128`, the messages at `k - 128` otherwise. -/
private theorem join_apply (x0 x1 : Vec Ideal S5000x128 .f32) (p : Fin 5000) (k : Fin 256) :
    concatenate S5000x256 1 [⟨S5000x128, x0⟩, ⟨S5000x128, x1⟩] concatenates_S5000x128_S5000x128_S5000x256_d1 (ix2 p k)
      = nodeIn (rowOf x0 p) (rowOf x1 p) k := by
  unfold nodeIn
  by_cases hk : k.val < 128
  · rw [dif_pos hk]
    exact concatenate_pair_apply_left 1 x0 x1 _ (ix2 p k) rfl (ix2 p ⟨k.val, hk⟩)
      (fun b => match b with | ⟨0, _⟩ => rfl | ⟨1, _⟩ => rfl)
  · rw [dif_neg hk]
    exact concatenate_pair_apply_right 1 x0 x1 _ (ix2 p k) rfl rfl (ix2 p ⟨k.val - 128, by have := k.isLt; omega⟩)
      (fun b hb => match b, hb with | ⟨0, _⟩, _ => rfl | ⟨1, _⟩, hb => absurd rfl hb)
      (by show k.val - 128 + 128 = k.val; omega)

/-- The first product with its bias row, read at row `p` and column `n`, is the first dense layer's output `n` on
    node `p`'s input row: the transposed weight block at (k, n) is the weight at (n, k), and the bias row at (0, n) is
    the bias at `n`. -/
private theorem hid_apply (x0 x1 : Vec Ideal S5000x128 .f32) (x2 : Vec Ideal S128x256 .f32) (x3 : Vec Ideal S128 .f32)
    (p : Fin 5000) (n : Fin 128) :
    Cert.PlainDot.affine (M := 5000) (K := 256) (N := 128)
        (truncf (F := Ideal) (s := S5000x256) (φ := .f32) .bf16
          (concatenate S5000x256 1 [⟨S5000x128, x0⟩, ⟨S5000x128, x1⟩] concatenates_S5000x128_S5000x128_S5000x256_d1) bitsLt_bf16_f32)
        (transpose S256x128 [1, 0] (truncf (F := Ideal) (s := S128x256) (φ := .f32) .bf16 x2 bitsLt_bf16_f32)
          transposes_S128x256_p1_0_S256x128)
        (shapeCast S1x128 x3 shapeCasts_S128_S1x128) (ix2 p n)
      = lin (nodeIn (rowOf x0 p) (rowOf x1 p)) (rowOf x2) (vecOf x3) n := by
  show (∑ k : Fin 256, concatenate S5000x256 1 [⟨S5000x128, x0⟩, ⟨S5000x128, x1⟩] concatenates_S5000x128_S5000x128_S5000x256_d1 (ix2 p k)
        * transpose S256x128 [1, 0] x2 transposes_S128x256_p1_0_S256x128 (ix2 k n))
      + shapeCast S1x128 x3 shapeCasts_S128_S1x128 (ix2 (0 : Fin 1) n)
      = (∑ k : Fin 256, nodeIn (rowOf x0 p) (rowOf x1 p) k * x2 (ix2 n k)) + x3 (ix1 n)
  refine congrArg₂ (· + ·) (Finset.sum_congr rfl fun k _ => ?_) (shapeCast_a_1a_apply x3 _ 0 n)
  exact congrArg₂ (· * ·) (join_apply x0 x1 p k) (transpose_ix2_apply (a := 128) (b := 256) x2 _ k n)

/-- The second product with its bias row, read at row `p` and column `j`, when its left operand is `H` times the
    logistic of `H` entrywise: the second dense layer's output `j` on the row `k ↦ silu (H (p, k))`. -/
private theorem out_apply (H : FVec Ideal S5000x128 .f32) (x4 : Vec Ideal S128x128 .f32) (x5 : Vec Ideal S128 .f32)
    (p : Fin 5000) (j : Fin 128) :
    Cert.PlainDot.affine (M := 5000) (K := 128) (N := 128)
        (truncf (F := Ideal) (s := S5000x128) (φ := .f32) .bf16 (mulf H (logistic H)) bitsLt_bf16_f32)
        (transpose S128x128 [1, 0] (truncf (F := Ideal) (s := S128x128) (φ := .f32) .bf16 x4 bitsLt_bf16_f32)
          transposes_S128x128_p1_0_S128x128)
        (shapeCast S1x128 x5 shapeCasts_S128_S1x128) (ix2 p j)
      = lin (fun k => silu (H (ix2 p k))) (rowOf x4) (vecOf x5) j := by
  show (∑ k : Fin 128, (H (ix2 p k) * Ideal.logistic (H (ix2 p k)))
        * transpose S128x128 [1, 0] x4 transposes_S128x128_p1_0_S128x128 (ix2 k j))
      + shapeCast S1x128 x5 shapeCasts_S128_S1x128 (ix2 (0 : Fin 1) j)
      = (∑ k : Fin 128, silu (H (ix2 p k)) * x4 (ix2 j k)) + x5 (ix1 j)
  refine congrArg₂ (· + ·) (Finset.sum_congr rfl fun k _ => ?_) (shapeCast_a_1a_apply x5 _ 0 j)
  exact congrArg (silu (H (ix2 p k)) * ·) (transpose_ix2_apply (a := 128) (b := 128) x4 _ k j)

/-- The value the node body stores, as a function of the six blocks it loads, is the node update. -/
theorem node_block (x0 x1 : Vec Ideal S5000x128 .f32) (x2 : Vec Ideal S128x256 .f32) (x3 : Vec Ideal S128 .f32)
    (x4 : Vec Ideal S128x128 .f32) (x5 : Vec Ideal S128 .f32) :
    k1_pay1 (F := Ideal) x0 x1 x2 x3 x4 x5 = nodeArr (R := 5000) x0 x1 x2 x3 x4 x5 := by
  unfold k1_pay1
  dsimp only
  have hd1 : dot_S5000x256_S256x128_S5000x128_1_0_0_1_n_n = DotDims.plain 5000 256 128 := rfl
  have hd2 : dot_S5000x128_S128x128_S5000x128_1_0_0_1_n_n = DotDims.plain 5000 128 128 := rfl
  rw [hd1, hd2, shapeCast_self]
  rw [Cert.PlainDot.matmul_add_row_eq, Cert.PlainDot.matmul_add_row_eq]
  funext i
  obtain ⟨p, j, rfl⟩ : ∃ (p : Fin 5000) (j : Fin 128), i = ix2 p j := ⟨i 0, i 1, eq_ix2 i⟩
  show x0 (ix2 p j) + _
    = x0 (ix2 p j) + lin (nodeHid (rowOf x0 p) (rowOf x1 p) (rowOf x2) (vecOf x3)) (rowOf x4) (vecOf x5) j
  refine congrArg (x0 (ix2 p j) + ·) ?_
  refine (out_apply _ x4 x5 p j).trans ?_
  refine congrArg (fun v => lin v (rowOf x4) (vecOf x5) j) (funext fun k => ?_)
  exact congrArg silu (hid_apply x0 x1 x2 x3 p k)

end Cert.NodeBlock

end
-- ==== Proof.NodeRegion.lean ====
/-
  The node stage over all 50000 nodes.

  Grid point t of 10 stages rows 5000·t … 5000·t + 4999 of the feature array and of the aggregated messages and
  the four weight and bias arrays whole, runs the body, and writes the block back to the same rows of the
  result. The blocks tile the array, and a node's update depends on its own rows only, so after the last point
  the result array is the layer's node update of the whole arrays as the stage found them.
-/
import proofs.«176786_j15693810499839_1_alg».proof.Proof.Gen.KernelIdeal.Frame
import proofs.«176786_j15693810499839_1_alg».proof.Proof.NodeBlock

noncomputable section

open scoped BigOperators

set_option maxRecDepth 16384

namespace Cert.NodeRegion

open Idealize.ShloMosaic Idealize.ShloMosaic.TcCoe Idealize.ShloMosaic.ValueIdx Idealize.SL.Sem Cert.KernelIdeal Cert.KernelIdeal.Gen Cert.Layer

variable (V : (c : Dev nD) → (b : Ref sig .tc) → Buf (Elt Ideal) ((c : Thread nD τ).loc b))

/-- The zero offsets of a rank-two whole-block access, as the constant function. -/
private theorem zero_offsets_pair : (![0, 0] : Fin 2 → Nat) = fun _ => 0 := funext fun a => by match a with | ⟨0, _⟩ => rfl | ⟨1, _⟩ => rfl
/-- The zero offset of a rank-one whole-block access, as the constant function. -/
private theorem zero_offsets_single : (![0] : Fin 1 → Nat) = fun _ => 0 := funext fun a => by match a with | ⟨0, _⟩ => rfl

/-- The block indices, decided over the ten grid points: point t takes row block t of the features, of the aggregated
    messages and of the result (column block 0), and block 0 of each weight and bias array. -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Every one of the ten row blocks is some grid point's. -/
private theorem block_onto : ∀ q : Fin 10, ∃ t : Fin cfg1.N, t.val = q.val :=
  (by decide +kernel : ∀ q : Fin 10, ∃ t : Fin grid1.N, t.val = q.val)

/-- Row p of the feature block at point t is row 5000·t + p of the feature array. -/
private theorem feat_block_read (c : Dev nD) (t : Fin cfg1.N) (p : Fin 5000) (k : Fin 128) (hp : t.val * 5000 + p.val < 50000) :
    (iblk1 V c 0 t : S5000x128.Idx → EReal) (ix2 p k) = (V c main_arg1 : S50000x128.Idx → EReal) (ix2 ⟨t.val * 5000 + p.val, hp⟩ k) := by
  obtain ⟨e0, e1, -⟩ := block_index t
  unfold iblk1
  rw [View.read_apply]
  show V c main_arg1 _ = V c main_arg1 _
  congr 1
  funext a
  apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row p of the aggregated-message block at point t is row 5000·t + p of the aggregated-message array. -/
private theorem msg_block_read (c : Dev nD) (t : Fin cfg1.N) (p : Fin 5000) (k : Fin 128) (hp : t.val * 5000 + p.val < 50000) :
    (iblk1 V c 1 t : S5000x128.Idx → EReal) (ix2 p k) = (V c main_v41 : S50000x128.Idx → EReal) (ix2 ⟨t.val * 5000 + p.val, hp⟩ k) := by
  obtain ⟨-, -, e0, e1, -⟩ := block_index t
  unfold iblk1
  rw [View.read_apply]
  show V c main_v41 _ = V c main_v41 _
  congr 1
  funext a
  apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight matrix is staged whole: its block at every point is the array. -/
private theorem w1_block_read (c : Dev nD) (t : Fin cfg1.N) :
    (iblk1 V c 2 t : S128x256.Idx → EReal) = (V c main_arg7 : S128x256.Idx → EReal) := by
  obtain ⟨-, -, -, -, e0, e1, -⟩ := block_index t
  funext y
  unfold iblk1
  rw [View.read_apply]
  show V c main_arg7 _ = V c main_arg7 _
  congr 1
  funext a
  apply Fin.ext
  match a with
  | ⟨0, _⟩ => show win1_2.index t (0 : Fin 2) * 128 + 1 * (y 0).val = (y 0).val; omega
  | ⟨1, _⟩ => show win1_2.index t (1 : Fin 2) * 256 + 1 * (y 1).val = (y 1).val; omega

/-- The first bias is staged whole. -/
private theorem b1_block_read (c : Dev nD) (t : Fin cfg1.N) :
    (iblk1 V c 3 t : S128.Idx → EReal) = (V c main_arg8 : S128.Idx → EReal) := by
  obtain ⟨-, -, -, -, -, -, e0, -⟩ := block_index t
  funext y
  unfold iblk1
  rw [View.read_apply]
  show V c main_arg8 _ = V c main_arg8 _
  congr 1
  funext a
  apply Fin.ext
  match a with
  | ⟨0, _⟩ => show win1_3.index t (0 : Fin 1) * 128 + 1 * (y 0).val = (y 0).val; omega

/-- The second weight matrix is staged whole. -/
private theorem w2_block_read (c : Dev nD) (t : Fin cfg1.N) :
    (iblk1 V c 4 t : S128x128.Idx → EReal) = (V c main_arg9 : S128x128.Idx → EReal) := by
  obtain ⟨-, -, -, -, -, -, -, e0, e1, -⟩ := block_index t
  funext y
  unfold iblk1
  rw [View.read_apply]
  show V c main_arg9 _ = V c main_arg9 _
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias is staged whole. -/
private theorem b2_block_read (c : Dev nD) (t : Fin cfg1.N) :
    (iblk1 V c 5 t : S128.Idx → EReal) = (V c main_arg10 : S128.Idx → EReal) := by
  obtain ⟨-, -, -, -, -, -, -, -, -, e0, -⟩ := block_index t
  funext y
  unfold iblk1
  rw [View.read_apply]
  show V c main_arg10 _ = V c main_arg10 _
  congr 1
  funext a
  apply Fin.ext
  match a with
  | ⟨0, _⟩ => show win1_5.index t (0 : Fin 1) * 128 + 1 * (y 0).val = (y 0).val; omega

/-- What point t writes back is rows 5000·t … 5000·t + 4999 of the node update of the whole arrays: the body's
    block is the node update of the staged blocks, and a node's update depends on its own rows only. -/
private theorem flushed_eq (c : Dev nD) (t : Fin cfg1.N) :
    (dat1 (F := Ideal) V c).flushed 6 t = ((cfg1.win 6).blk t).view.read (Elt Ideal)
      (nodeArr (R := 50000) (V c main_arg1) (V c main_v41) (V c main_arg7) (V c main_arg8) (V c main_arg9) (V c main_arg10)) := by
  show (cfg1.win 6).cut (grid1.coords t) ((dat1 V c).after 6 t) = _
  rw [after1_6]
  unfold out1_6
  rw [View.canon_unit_zero zero_offsets_pair]
  simp only [View.ld_unit_zero (S := S5000x128) zero_offsets_pair, View.ld_unit_zero (S := S128x256) zero_offsets_pair,
    View.ld_unit_zero (S := S128x128) zero_offsets_pair, View.ld_unit_zero (S := S128) zero_offsets_single]
  rw [Cert.NodeBlock.node_block, w1_block_read V c t, b1_block_read V c t, w2_block_read V c t, b2_block_read V c t]
  have hN : grid1.N = 10 := Gen.N_1
  have ht : t.val < 10 := hN ▸ t.isLt
  obtain ⟨-, -, -, -, -, -, -, -, -, -, e0, e1⟩ := block_index t
  funext y
  show nodeArr (R := 5000) (iblk1 V c 0 t) (iblk1 V c 1 t) (V c main_arg7) (V c main_arg8) (V c main_arg9) (V c main_arg10) y
    = nodeArr (R := 50000) (V c main_arg1) (V c main_v41) (V c main_arg7) (V c main_arg8) (V c main_arg9) (V c main_arg10)
        (((cfg1.win 6).blk t).view.emb y)
  obtain ⟨p, k, rfl⟩ : ∃ (p : Fin 5000) (k : Fin 128), y = ix2 p k := ⟨y 0, y 1, eq_ix2 y⟩
  have hp : t.val * 5000 + p.val < 50000 := by have := p.isLt; omega
  have hemb : ((cfg1.win 6).blk t).view.emb (ix2 p k) = (ix2 (⟨t.val * 5000 + p.val, hp⟩ : Fin 50000) k : S50000x128.Idx) := by
    funext a
    apply Fin.ext
    match a with
    | ⟨0, _⟩ => show win1_6.index t (0 : Fin 2) * 5000 + 1 * p.val = t.val * 5000 + p.val; omega
    | ⟨1, _⟩ => show win1_6.index t (1 : Fin 2) * 128 + 1 * k.val = k.val; omega
  rw [hemb]
  exact nodeArr_row (R := 5000) (R' := 50000) (iblk1 V c 0 t) (iblk1 V c 1 t) (V c main_arg1) (V c main_v41)
    (V c main_arg7) (V c main_arg8) (V c main_arg9) (V c main_arg10) p ⟨t.val * 5000 + p.val, hp⟩
    (fun k' => feat_block_read V c t p k' hp) (fun k' => msg_block_read V c t p k' hp) k

/-- An index of the result array is in point t's block iff each coordinate is in the block's range on its axis. -/
private theorem mem_block (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v42).slice (win1_6.rect t)).set ↔ _
  rw [View.set_slice_whole, Rect.mem_set_unit]
  exact Iff.rfl

/-- The ten row blocks tile the result array: row r is in the block of point r / 5000, and every point writes back. -/
private theorem blocks_cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := block_onto ⟨(i 0).val / 5000, by omega⟩
  have q : t.val = (i 0).val / 5000 := ht
  obtain ⟨-, -, -, -, -, -, -, -, -, -, e0, e1⟩ := block_index t
  refine ⟨t, flush1_6 t, ?_⟩
  rw [mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The result array when the node stage ends, from the arrays it was entered with. -/
theorem node_region (c : Dev nD) :
    (dat1 (F := Ideal) V c).arrAt 6 cfg1.N
      = nodeArr (R := 50000) (V c main_arg1) (V c main_v41) (V c main_arg7) (V c main_arg8) (V c main_arg9) (V c main_arg10) :=
  (dat1 (F := Ideal) V c).arrAt_eq_of_cover 6 _ (fun t _ => flushed_eq V c t) blocks_cover

end Cert.NodeRegion

end
-- ==== Proof.HostTerms.lean ====
/-
  The host-side terms of the kernel program, named.

  From the edge-index array: the sender row and the receiver row, each as a length-800000 array; an index
  array with its negative entries wrapped by adding 50000, as a column; the rows of the feature table and of
  the position table gathered at such a column. From the positions: the distance column, the square root of
  the row sums of the squared coordinate differences. And the aggregation: the messages scatter-added, at the
  sender indices, into a 50000 × 128 array of zeros.
-/
import proofs.«176786_j15693810499839_1_alg».proof.Proof.Gen.KernelIdeal
import Idealize.ShloMosaic.PureOps.Ideal

noncomputable section

open scoped BigOperators

namespace Cert.HostTerms

open Idealize.ShloMosaic Cert.KernelIdeal Cert.KernelIdeal.Facts₀ Cert.KernelIdeal.Facts

/-- Row `0` of the edge-index array: every edge's sender. -/
def senders (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- Row `1` of the edge-index array: every edge's receiver. -/
def receivers (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- An index array with 50000 added to its negative entries, as a column. -/
def wrapped (ix : (⟨S800000, .i32⟩ : BufTy).Contents (Elt Ideal)) : (⟨S800000x1, .i32⟩ : BufTy).Contents (Elt Ideal) :=
  broadcastInDim S800000x1 ![0] bcast_S800000_S800000x1_0
    (select (cmpi .slt ix (broadcastInDim S800000 ![] bcast_S_S800000 (constantI S_ 32 0#32)))
      (addi ix (broadcastInDim S800000 ![] bcast_S_S800000 (constantI S_ 32 50000#32))) ix)

/-- The feature rows at an index array. -/
def featAt (h : (⟨S50000x128, .f32⟩ : BufTy).Contents (Elt Ideal)) (ix : (⟨S800000, .i32⟩ : BufTy).Contents (Elt Ideal)) :
    (⟨S800000x128, .f32⟩ : BufTy).Contents (Elt Ideal) :=
  Host.gather gather_S50000x128_S800000x1_S800000x128_1_0_n_n_0_1_1128 h (wrapped ix)

/-- The position rows at an index array. -/
def posAt (x : (⟨S50000x3, .f32⟩ : BufTy).Contents (Elt Ideal)) (ix : (⟨S800000, .i32⟩ : BufTy).Contents (Elt Ideal)) :
    (⟨S800000x3, .f32⟩ : BufTy).Contents (Elt Ideal) :=
  Host.gather gather_S50000x3_S800000x1_S800000x3_1_0_n_n_0_1_13 x (wrapped ix)

/-- The distance between every edge's endpoints, as a column. -/
def radial (x : (⟨S50000x3, .f32⟩ : BufTy).Contents (Elt Ideal)) (ei : (⟨S2x800000, .i32⟩ : BufTy).Contents (Elt Ideal)) :
    (⟨S800000x1, .f32⟩ : BufTy).Contents (Elt Ideal) :=
  Host.sqrt (broadcastInDim S800000x1 ![0] bcast_S800000_S800000x1_0
    (Host.reduceAdd (mulf (subf (posAt x (senders ei)) (posAt x (receivers ei))) (subf (posAt x (senders ei)) (posAt x (receivers ei))))
      (constant (F := Ideal) S_ .f32 0x00000000#32) reducesTo_S800000x3_S800000_d1 h_S_))

/-- The messages summed per sender node. -/
def aggregated (ei : (⟨S2x800000, .i32⟩ : BufTy).Contents (Elt Ideal)) (msg : (⟨S800000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (senders ei)) msg

end Cert.HostTerms

end
-- ==== Proof.KernelValue.lean ====
/-
  The kernel program's result array, as a function of the launch contents.

  The program is a stretch of host operations, the edge stage, a short stretch that aggregates the messages,
  and the node stage. Reading the buffers at each boundary back to the launch memory: the edge stage is entered
  with the gathered sender and receiver features and the auxiliary array (the distance column joined with the
  edge attributes) and with its weights as launched, so it leaves the layer's messages; the second stretch
  scatter-adds them at the sender indices into zeros; the node stage is entered with the features and its
  weights as launched and with that sum, so it leaves the layer's node update of the features and the aggregated
  messages.
-/
import proofs.«176786_j15693810499839_1_alg».proof.Proof.Gen.KernelIdeal.Frame
import proofs.«176786_j15693810499839_1_alg».proof.Proof.EdgeRegion
import proofs.«176786_j15693810499839_1_alg».proof.Proof.NodeRegion
import proofs.«176786_j15693810499839_1_alg».proof.Proof.HostTerms
import Idealize.ShloMosaic.Lib.StableHlo.Run
import Idealize.ShloMosaic.Lib.Pipeline.Value

set_option maxRecDepth 16384

noncomputable section

open scoped BigOperators

namespace Cert.KernelValue

open Idealize.ShloMosaic Idealize.ShloMosaic.TcCoe Idealize.ShloMosaic.ValueIdx Idealize.SL.Sem Idealize.ShloMosaic.StableHlo
open Cert.KernelIdeal Cert.KernelIdeal.Gen Cert.KernelIdeal.Facts₀ Cert.KernelIdeal.Facts Cert.Layer Cert.HostTerms

variable (m : (ℓ : Loc nD τ sig) → Buf (Elt Ideal) ℓ) (ρ : Dev nD → PrngReg)

/-- The launch contents of an argument array, as the fold's first valuation reads them. -/
theorem W0_eq (c : Dev nD) (b : Ref sig .tc) : W0 (F := Ideal) m ρ c (Proc.devRef .tc b) = m ((c : Thread nD τ).loc b) := rfl

/-- Entering the edge stage, the sender-row features. -/
theorem entry_v10 (c : Dev nD) :
    V1 (F := Ideal) m ρ c main_v10 = featAt (m ((c : Thread nD τ).loc main_arg1)) (senders (m ((c : Thread nD τ).loc main_arg13))) := by
  show StableHlo.after hostOps0 (W0 m ρ c) (Proc.devRef .tc main_v10) = _
  after_results
  rfl

set_option maxHeartbeats 4000000 in
/-- Entering the edge stage, the receiver-row features. -/
theorem entry_v17 (c : Dev nD) :
    V1 (F := Ideal) m ρ c main_v17 = featAt (m ((c : Thread nD τ).loc main_arg1)) (receivers (m ((c : Thread nD τ).loc main_arg13))) := by
  show StableHlo.after hostOps0 (W0 m ρ c) (Proc.devRef .tc main_v17) = _
  after_results
  rfl

/-- The distance column joined with the edge attributes along the columns is the layer's auxiliary array:
    column 0 reads the distance, column k ≥ 1 reads attribute k - 1. -/
theorem join_aux (a : (⟨S800000x1, .f32⟩ : BufTy).Contents (Elt Ideal)) (b : (⟨S800000x16, .f32⟩ : BufTy).Contents (Elt Ideal)) :
    concatenate S800000x17 1 [⟨S800000x1, a⟩, ⟨S800000x16, b⟩] Facts₀.concatenates_S800000x1_S800000x16_S800000x17_d1 = auxArr (R := 800000) a b := by
  funext i
  obtain ⟨e, k, rfl⟩ : ∃ (e : Fin 800000) (k : Fin 17), i = ix2 e k := ⟨i 0, i 1, eq_ix2 i⟩
  show _ = auxIn (a (ix2 e (0 : Fin 1))) (rowOf b e) k
  unfold auxIn
  by_cases hk : k.val < 1
  · rw [dif_pos hk]
    refine concatenate_pair_apply_left (1 : Fin S800000x17.rank) a b _ (ix2 e k) rfl (ix2 e (0 : Fin 1)) fun d => ?_
    match d with
    | ⟨0, _⟩ => rfl
    | ⟨1, _⟩ => show (0 : Nat) = k.val; omega
  · rw [dif_neg hk]
    have hk17 := k.isLt
    refine concatenate_pair_apply_right (1 : Fin S800000x17.rank) a b _ (ix2 e k) rfl rfl (ix2 e ⟨k.val - 1, by omega⟩) (fun d hd => ?_) ?_
    · match d with
      | ⟨0, _⟩ => rfl
      | ⟨1, _⟩ => exact absurd rfl hd
    · show (k.val - 1) + 1 = k.val; omega

set_option maxHeartbeats 16000000 in
/-- Entering the edge stage, the auxiliary array. -/
theorem entry_v37 (c : Dev nD) :
    V1 (F := Ideal) m ρ c main_v37
      = auxArr (R := 800000) (radial (m ((c : Thread nD τ).loc main_arg0)) (m ((c : Thread nD τ).loc main_arg13))) (m ((c : Thread nD τ).loc main_arg2)) := by
  rw [← join_aux]
  show StableHlo.after hostOps0 (W0 m ρ c) (Proc.devRef .tc main_v37) = _
  after_results
  rfl

/-- No operation of a host stretch writes the buffer: every operation's written reference differs from it. -/
local macro "not_written " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## Entering the edge stage: the weights are as launched -/

theorem entry_arg3 (c : Dev nD) : V1 (F := Ideal) m ρ c main_arg3 = m ((c : Thread nD τ).loc main_arg3) :=
  StableHlo.after_of_forall_not_mem (b := Proc.devRef .tc main_arg3) _ _ (by not_written hostOps0)
theorem entry_arg4 (c : Dev nD) : V1 (F := Ideal) m ρ c main_arg4 = m ((c : Thread nD τ).loc main_arg4) :=
  StableHlo.after_of_forall_not_mem (b := Proc.devRef .tc main_arg4) _ _ (by not_written hostOps0)
theorem entry_arg5 (c : Dev nD) : V1 (F := Ideal) m ρ c main_arg5 = m ((c : Thread nD τ).loc main_arg5) :=
  StableHlo.after_of_forall_not_mem (b := Proc.devRef .tc main_arg5) _ _ (by not_written hostOps0)
theorem entry_arg6 (c : Dev nD) : V1 (F := Ideal) m ρ c main_arg6 = m ((c : Thread nD τ).loc main_arg6) :=
  StableHlo.after_of_forall_not_mem (b := Proc.devRef .tc main_arg6) _ _ (by not_written hostOps0)
theorem entry_arg11 (c : Dev nD) : V1 (F := Ideal) m ρ c main_arg11 = m ((c : Thread nD τ).loc main_arg11) :=
  StableHlo.after_of_forall_not_mem (b := Proc.devRef .tc main_arg11) _ _ (by not_written hostOps0)
theorem entry_arg12 (c : Dev nD) : V1 (F := Ideal) m ρ c main_arg12 = m ((c : Thread nD τ).loc main_arg12) :=
  StableHlo.after_of_forall_not_mem (b := Proc.devRef .tc main_arg12) _ _ (by not_written hostOps0)

/-- The message array as the edge stage leaves it: the layer's messages of the gathered features, the
    auxiliary array and the edge network's weights, all functions of the launch contents. -/
def messages (c : Dev nD) : Mat 800000 128 :=
  edgeArr (R := 800000)
    (featAt (m ((c : Thread nD τ).loc main_arg1)) (senders (m ((c : Thread nD τ).loc main_arg13))))
    (featAt (m ((c : Thread nD τ).loc main_arg1)) (receivers (m ((c : Thread nD τ).loc main_arg13))))
    (auxArr (R := 800000) (radial (m ((c : Thread nD τ).loc main_arg0)) (m ((c : Thread nD τ).loc main_arg13))) (m ((c : Thread nD τ).loc main_arg2)))
    (m ((c : Thread nD τ).loc main_arg3)) (m ((c : Thread nD τ).loc main_arg4)) (m ((c : Thread nD τ).loc main_arg5))
    (m ((c : Thread nD τ).loc main_arg6)) (m ((c : Thread nD τ).loc main_arg11)) (m ((c : Thread nD τ).loc main_arg12))

/-- Leaving the edge stage, its output array holds the messages. -/
theorem exit_v38 (c : Dev nD) : W2 (F := Ideal) m ρ c (Proc.devRef .tc main_v38) = messages m c := by
  refine (W2_arr m ρ c 9).trans ?_
  rw [Cert.EdgeRegion.edge_region (V1 m ρ) c, entry_v10, entry_v17, entry_v37, entry_arg3, entry_arg4, entry_arg5, entry_arg6,
    entry_arg11, entry_arg12]
  rfl

/-- Leaving the edge stage, the sender indices are what the first host stretch computed. -/
theorem exit_v1 (c : Dev nD) : W2 (F := Ideal) m ρ c (Proc.devRef .tc main_v1) = senders (m ((c : Thread nD τ).loc main_arg13)) := by
  refine (W2_of_ne m ρ c main_v1 (by decide)).trans ?_
  show StableHlo.after hostOps0 (W0 m ρ c) (Proc.devRef .tc main_v1) = _
  after_results
  rfl

/-- Entering the node stage, the aggregated messages. -/
theorem entry_v41 (c : Dev nD) :
    V3 (F := Ideal) m ρ c main_v41 = aggregated (m ((c : Thread nD τ).loc main_arg13)) (messages m c) := by
  show StableHlo.after hostOps1 (W2 m ρ c) (Proc.devRef .tc main_v41) = _
  after_results
  rw [exit_v1, exit_v38]
  rfl

/-- A launch argument that neither host stretch writes and the edge stage does not own holds its launch contents
    when the node stage is entered. -/
theorem entry1_arg1 (c : Dev nD) : V3 (F := Ideal) m ρ c main_arg1 = m ((c : Thread nD τ).loc main_arg1) :=
  (StableHlo.after_of_forall_not_mem (b := Proc.devRef .tc main_arg1) _ _ (by not_written hostOps1)).trans
    ((W2_of_ne m ρ c main_arg1 (by decide)).trans
      (StableHlo.after_of_forall_not_mem (b := Proc.devRef .tc main_arg1) _ _ (by not_written hostOps0)))
theorem entry1_arg7 (c : Dev nD) : V3 (F := Ideal) m ρ c main_arg7 = m ((c : Thread nD τ).loc main_arg7) :=
  (StableHlo.after_of_forall_not_mem (b := Proc.devRef .tc main_arg7) _ _ (by not_written hostOps1)).trans
    ((W2_of_ne m ρ c main_arg7 (by decide)).trans
      (StableHlo.after_of_forall_not_mem (b := Proc.devRef .tc main_arg7) _ _ (by not_written hostOps0)))
theorem entry1_arg8 (c : Dev nD) : V3 (F := Ideal) m ρ c main_arg8 = m ((c : Thread nD τ).loc main_arg8) :=
  (StableHlo.after_of_forall_not_mem (b := Proc.devRef .tc main_arg8) _ _ (by not_written hostOps1)).trans
    ((W2_of_ne m ρ c main_arg8 (by decide)).trans
      (StableHlo.after_of_forall_not_mem (b := Proc.devRef .tc main_arg8) _ _ (by not_written hostOps0)))
theorem entry1_arg9 (c : Dev nD) : V3 (F := Ideal) m ρ c main_arg9 = m ((c : Thread nD τ).loc main_arg9) :=
  (StableHlo.after_of_forall_not_mem (b := Proc.devRef .tc main_arg9) _ _ (by not_written hostOps1)).trans
    ((W2_of_ne m ρ c main_arg9 (by decide)).trans
      (StableHlo.after_of_forall_not_mem (b := Proc.devRef .tc main_arg9) _ _ (by not_written hostOps0)))
theorem entry1_arg10 (c : Dev nD) : V3 (F := Ideal) m ρ c main_arg10 = m ((c : Thread nD τ).loc main_arg10) :=
  (StableHlo.after_of_forall_not_mem (b := Proc.devRef .tc main_arg10) _ _ (by not_written hostOps1)).trans
    ((W2_of_ne m ρ c main_arg10 (by decide)).trans
      (StableHlo.after_of_forall_not_mem (b := Proc.devRef .tc main_arg10) _ _ (by not_written hostOps0)))

/-- THE KERNEL PROGRAM'S RESULT: the node update of the launched features and the aggregated messages. -/
theorem kernel_value (c : Dev nD) :
    W4 (F := Ideal) m ρ c (Proc.devRef .tc main_v42)
      = nodeArr (R := 50000) (m ((c : Thread nD τ).loc main_arg1)) (aggregated (m ((c : Thread nD τ).loc main_arg13)) (messages m c))
          (m ((c : Thread nD τ).loc main_arg7)) (m ((c : Thread nD τ).loc main_arg8)) (m ((c : Thread nD τ).loc main_arg9))
          (m ((c : Thread nD τ).loc main_arg10)) := by
  refine (W4_arr m ρ c 6).trans ?_
  rw [Cert.NodeRegion.node_region (V3 m ρ) c, entry1_arg1, entry_v41, entry1_arg7, entry1_arg8, entry1_arg9, entry1_arg10]

end Cert.KernelValue

end
-- ==== Proof.RefEdge.lean ====
/-
  The reference's per-edge stage, read at an index.

  The reference joins the two gathered feature arrays, the distance column and the edge attributes along the
  columns, takes the dot product with the transposed first weight matrix, adds the bias, applies
  x · (1 / (1 + e^(-x))); repeats with the second weight matrix; and scales by 1 / (1 + e^(-(s2 · wa + ba))).
  Over the extended reals 1 / (1 + e^(-x)) is σ(x), the dot product is the sum of products, and the four-way
  join read at a column is the three-way join of the features with the joined auxiliary columns, so the array
  is the layer's message function of the gathered features and the auxiliary array.
-/
import proofs.«176786_j15693810499839_1_alg».proof.Proof.RefStages
import proofs.«176786_j15693810499839_1_alg».proof.Proof.Layer
import proofs.«176786_j15693810499839_1_alg».proof.Proof.LibPlainDot
import Idealize.ShloMosaic.Lib.ValueLayout
import Idealize.ShloMosaic.Lib.Pipeline.Value

noncomputable section

open scoped BigOperators

namespace Cert.RefEdge

open Idealize.ShloMosaic Idealize.ShloMosaic.ValueIdx Cert.ReferenceIdeal Cert.ReferenceIdeal.ReadP Cert.Layer

/-! ## Leaf facts -/

/-- The word 0x3F800000 denotes the real number one. -/
private theorem one_word : Ideal.ofBits .f32 0x3F800000#32 = (1 : EReal) := by
  simp [Ideal.ofBits, Ideal.ieee, -EReal.coe_mul]
  norm_num

/-- One over one plus the exponential of the negation, with both ones given as that word, is σ. -/
private theorem host_sigma (x : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf x)))
      = Ideal.logistic x := by
  rw [Ideal.ofBits_def, one_word]
  rfl

/-- The four-way column join read at (e, k): the first 128 columns are the first feature row, the next 128 the
    second, column 256 the distance and the last 16 the edge attributes — the edge network's input row. -/
private theorem join_apply (y29 y36 : S800000x128.Idx → EReal) (y22 : S800000x1.Idx → EReal) (x2 : S800000x16.Idx → EReal)
    (h : Shape.Concatenates [S800000x128, S800000x128, S800000x1, S800000x16] S800000x273 1)
    (e : Fin 800000) (k : Fin 273) :
    concatenate S800000x273 1 [⟨S800000x128, y29⟩, ⟨S800000x128, y36⟩, ⟨S800000x1, y22⟩, ⟨S800000x16, x2⟩] h (ix2 e k)
      = edgeIn (rowOf y29 e) (rowOf y36 e) (rowOf (auxArr y22 x2) e) k := by
  have hk := k.isLt
  unfold edgeIn
  by_cases h1 : k.val < 128
  · rw [dif_pos h1]
    exact concatenate_apply_piece (α := EReal) 1 [⟨S800000x128, y29⟩, ⟨S800000x128, y36⟩, ⟨S800000x1, y22⟩, ⟨S800000x16, x2⟩] h (ix2 e k) 0 (by show (0 : Nat) < 4; omega)
      S800000x128 y29 rfl rfl 0 rfl (ix2 e ⟨k.val, h1⟩)
      (fun b hb => by match b, hb with | ⟨0, _⟩, _ => rfl | ⟨1, _⟩, hb => exact absurd rfl hb)
      (by show 0 + k.val = k.val; omega)
  · rw [dif_neg h1]
    by_cases h2 : k.val < 256
    · rw [dif_pos h2]
      exact concatenate_apply_piece (α := EReal) 1 [⟨S800000x128, y29⟩, ⟨S800000x128, y36⟩, ⟨S800000x1, y22⟩, ⟨S800000x16, x2⟩] h (ix2 e k) 1 (by show (1 : Nat) < 4; omega)
        S800000x128 y36 rfl rfl 128 rfl (ix2 e ⟨k.val - 128, by omega⟩)
        (fun b hb => by match b, hb with | ⟨0, _⟩, _ => rfl | ⟨1, _⟩, hb => exact absurd rfl hb)
        (by show 128 + (k.val - 128) = k.val; omega)
    · rw [dif_neg h2]
      show _ = auxIn (y22 (ix2 e (0 : Fin 1))) (rowOf x2 e) ⟨k.val - 256, by omega⟩
      unfold auxIn
      by_cases h3 : k.val - 256 < 1
      · rw [dif_pos h3]
        exact concatenate_apply_piece (α := EReal) 1 [⟨S800000x128, y29⟩, ⟨S800000x128, y36⟩, ⟨S800000x1, y22⟩, ⟨S800000x16, x2⟩] h (ix2 e k) 2 (by show (2 : Nat) < 4; omega)
          S800000x1 y22 rfl rfl 256 rfl (ix2 e (0 : Fin 1))
          (fun b hb => by match b, hb with | ⟨0, _⟩, _ => rfl | ⟨1, _⟩, hb => exact absurd rfl hb)
          (by show 256 + 0 = k.val; omega)
      · rw [dif_neg h3]
        exact concatenate_apply_piece (α := EReal) 1 [⟨S800000x128, y29⟩, ⟨S800000x128, y36⟩, ⟨S800000x1, y22⟩, ⟨S800000x16, x2⟩] h (ix2 e k) 3 (by show (3 : Nat) < 4; omega)
          S800000x16 x2 rfl rfl 257 rfl (ix2 e ⟨k.val - 256 - 1, by omega⟩)
          (fun b hb => by match b, hb with | ⟨0, _⟩, _ => rfl | ⟨1, _⟩, hb => exact absurd rfl hb)
          (by show 257 + (k.val - 256 - 1) = k.val; omega)

/-! ## The stage, one operation group at a time -/

/-- The edge network's input row of edge `e`: its two gathered feature rows, then its auxiliary coordinates. -/
private abbrev einRow (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x13 : (⟨S2x800000, .i32⟩ : BufTy).Contents (Elt Ideal)) (e : Fin 800000) : Fin 273 → EReal :=
  edgeIn (rowOf (R := 800000) (C := 128) (val_main_v29 (F := Ideal) x1 x13) e)
    (rowOf (R := 800000) (C := 128) (val_main_v36 (F := Ideal) x1 x13) e)
    (rowOf (R := 800000) (C := 17) (auxArr (val_main_v22 (F := Ideal) x0 x13) x2) e)

/-- The first dense layer before its activation: the input row against row `n` of the weights, plus the bias. -/
private theorem v42_row (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x13 : (⟨S2x800000, .i32⟩ : BufTy).Contents (Elt Ideal)) (e : Fin 800000) (n : Fin 128) :
    val_main_v42 (F := Ideal) x0 x1 x2 x3 x4 x13 (ix2 e n) = lin (einRow x0 x1 x2 x13 e) (rowOf x3) (vecOf x4) n := by
  rw [val_main_v42_apply, val_main_v39_apply, val_main_v41_apply, val_main_v40_apply, Ideal.addf_def]
  unfold lin
  refine congrArg₂ (· + ·) (Finset.sum_congr rfl fun k _ => ?_) ?_
  · have el : lidx_main_v39 (ix2 e n) k = ix2 e k := funext fun a => Fin.ext (by match a with | ⟨0, _⟩ => rfl | ⟨1, _⟩ => rfl)
    have er : idx_main_v38 (ridx_main_v39 (ix2 e n) k) = ix2 n k := funext fun a => Fin.ext (by match a with | ⟨0, _⟩ => rfl | ⟨1, _⟩ => rfl)
    rw [el, val_main_v38_apply, er]
    refine congrArg₂ (· * ·) ?_ rfl
    unfold val_main_v37
    exact join_apply _ _ _ _ _ e k
  · exact congrArg x4 (funext fun a => Fin.ext (by match a with | ⟨0, _⟩ => rfl))

/-- The first activation: x · (1 / (1 + e^(-x))) is silu. -/
private theorem v43_silu (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x13 : (⟨S2x800000, .i32⟩ : BufTy).Contents (Elt Ideal)) (i : S800000x128.Idx) :
    val_main_v43 (F := Ideal) x0 x1 x2 x3 x4 x13 i = silu (val_main_v42 (F := Ideal) x0 x1 x2 x3 x4 x13 i) := by
  rw [val_main_v43_apply, val_main_call0_v5_apply, val_main_call0_v4_apply, val_main_call0_cst_0_apply,
    val_main_call0_v3_apply, val_main_call0_v2_apply, val_main_call0_cst_apply, val_main_call0_v1_apply,
    val_main_call0_v0_apply]
  generalize val_main_v42 (F := Ideal) x0 x1 x2 x3 x4 x13 i = x
  exact congrArg (fun t => x * t) (host_sigma x)

/-- The first hidden row. -/
private theorem v43_row (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x13 : (⟨S2x800000, .i32⟩ : BufTy).Contents (Elt Ideal)) (e : Fin 800000) (n : Fin 128) :
    val_main_v43 (F := Ideal) x0 x1 x2 x3 x4 x13 (ix2 e n) = (edgeHid1 (einRow x0 x1 x2 x13 e) (rowOf x3) (vecOf x4)) n := by
  rw [v43_silu, v42_row]
  rfl

/-- The second dense layer before its activation. -/
private theorem v48_row (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x13 : (⟨S2x800000, .i32⟩ : BufTy).Contents (Elt Ideal)) (e : Fin 800000) (n : Fin 128) :
    val_main_v48 (F := Ideal) x0 x1 x2 x3 x4 x5 x6 x13 (ix2 e n) = lin (edgeHid1 (einRow x0 x1 x2 x13 e) (rowOf x3) (vecOf x4)) (rowOf x5) (vecOf x6) n := by
  rw [val_main_v48_apply, val_main_v45_apply, val_main_v47_apply, val_main_v46_apply, Ideal.addf_def]
  unfold lin
  refine congrArg₂ (· + ·) (Finset.sum_congr rfl fun k _ => ?_) ?_
  · have el : lidx_main_v45 (ix2 e n) k = ix2 e k := funext fun a => Fin.ext (by match a with | ⟨0, _⟩ => rfl | ⟨1, _⟩ => rfl)
    have er : idx_main_v44 (ridx_main_v45 (ix2 e n) k) = ix2 n k := funext fun a => Fin.ext (by match a with | ⟨0, _⟩ => rfl | ⟨1, _⟩ => rfl)
    rw [el, val_main_v44_apply, er, v43_row]
    rfl
  · exact congrArg x6 (funext fun a => Fin.ext (by match a with | ⟨0, _⟩ => rfl))

/-- The second activation. -/
private theorem v49_silu (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x13 : (⟨S2x800000, .i32⟩ : BufTy).Contents (Elt Ideal)) (i : S800000x128.Idx) :
    val_main_v49 (F := Ideal) x0 x1 x2 x3 x4 x5 x6 x13 i
      = silu (val_main_v48 (F := Ideal) x0 x1 x2 x3 x4 x5 x6 x13 i) := by
  rw [val_main_v49_apply, val_main_call1_v5_apply, val_main_call1_v4_apply, val_main_call1_cst_0_apply,
    val_main_call1_v3_apply, val_main_call1_v2_apply, val_main_call1_cst_apply, val_main_call1_v1_apply,
    val_main_call1_v0_apply]
  generalize val_main_v48 (F := Ideal) x0 x1 x2 x3 x4 x5 x6 x13 i = x
  exact congrArg (fun t => x * t) (host_sigma x)

/-- The second hidden row. -/
private theorem v49_row (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x13 : (⟨S2x800000, .i32⟩ : BufTy).Contents (Elt Ideal)) (e : Fin 800000) (n : Fin 128) :
    val_main_v49 (F := Ideal) x0 x1 x2 x3 x4 x5 x6 x13 (ix2 e n) = (edgeHid2 (einRow x0 x1 x2 x13 e) (rowOf x3) (vecOf x4) (rowOf x5) (vecOf x6)) n := by
  rw [v49_silu, v48_row]
  rfl

/-- The gate's argument: the second hidden row against the attention weights, plus the attention bias. -/
private theorem v54_row (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal)) (e : Fin 800000) :
    val_main_v54 (F := Ideal) x0 x1 x2 x3 x4 x5 x6 x11 x12 x13 (ix2 e (0 : Fin 1))
      = (∑ k : Fin 128, (edgeHid2 (einRow x0 x1 x2 x13 e) (rowOf x3) (vecOf x4) (rowOf x5) (vecOf x6)) k * rowOf x11 (0 : Fin 1) k) + x12 (ix1 (0 : Fin 1)) := by
  rw [val_main_v54_apply, val_main_v51_apply, val_main_v53_apply, val_main_v52_apply, Ideal.addf_def]
  refine congrArg₂ (· + ·) (Finset.sum_congr rfl fun k _ => ?_) ?_
  · have el : lidx_main_v51 (ix2 e (0 : Fin 1)) k = ix2 e k := funext fun a => Fin.ext (by match a with | ⟨0, _⟩ => rfl | ⟨1, _⟩ => rfl)
    have er : idx_main_v50 (ridx_main_v51 (ix2 e (0 : Fin 1)) k) = ix2 (0 : Fin 1) k := funext fun a => Fin.ext (by match a with | ⟨0, _⟩ => rfl | ⟨1, _⟩ => rfl)
    rw [el, val_main_v50_apply, er, v49_row]
    rfl
  · exact congrArg x12 (funext fun a => Fin.ext (by match a with | ⟨0, _⟩ => rfl))

/-- The gate, broadcast along the columns: σ of the gate's argument at every column. -/
private theorem v61_row (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal)) (e : Fin 800000) (j : Fin 128) :
    val_main_v61 (F := Ideal) x0 x1 x2 x3 x4 x5 x6 x11 x12 x13 (ix2 e j)
      = gate (edgeHid2 (einRow x0 x1 x2 x13 e) (rowOf x3) (vecOf x4) (rowOf x5) (vecOf x6)) (rowOf x11 (0 : Fin 1)) (x12 (ix1 (0 : Fin 1))) := by
  have ei : idx_main_v61 (ix2 e j) = ix2 e (0 : Fin 1) := funext fun a => Fin.ext (by match a with | ⟨0, _⟩ => rfl | ⟨1, _⟩ => rfl)
  rw [val_main_v61_apply, ei, val_main_v60_apply, val_main_v59_apply, val_main_cst_8_apply, val_main_v58_apply,
    val_main_v57_apply, val_main_cst_7_apply, val_main_v56_apply, val_main_v55_apply, v54_row]
  exact host_sigma _

/-- The reference's message array is the message function of its gathered features, its distance column
    joined with the edge attributes, and the edge network's weights. -/
theorem ref_edge (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal)) :
    val_main_v62 (F := Ideal) x0 x1 x2 x3 x4 x5 x6 x11 x12 x13
      = edgeArr (R := 800000) (val_main_v29 (F := Ideal) x1 x13) (val_main_v36 (F := Ideal) x1 x13)
          (auxArr (val_main_v22 (F := Ideal) x0 x13) x2) x3 x4 x5 x6 x11 x12 := by
  funext i
  obtain ⟨e, j, rfl⟩ : ∃ (e : Fin 800000) (j : Fin 128), i = ix2 e j := ⟨i 0, i 1, eq_ix2 i⟩
  rw [val_main_v62_apply, v49_row, v61_row]
  rfl

end Cert.RefEdge

end
-- ==== Proof.RefNode.lean ====
/-
  The reference's per-node stage, read at an index.

  The reference joins the features and the aggregated messages along the columns, takes the dot product with
  the transposed third weight matrix, adds the bias, applies x · (1 / (1 + e^(-x))), takes the dot product with
  the transposed fourth weight matrix, adds its bias and adds the features back: over the extended reals the
  layer's node update of the features and the aggregated messages.
-/
import proofs.«176786_j15693810499839_1_alg».proof.Proof.RefStages
import proofs.«176786_j15693810499839_1_alg».proof.Proof.Layer
import proofs.«176786_j15693810499839_1_alg».proof.Proof.LibPlainDot
import Idealize.ShloMosaic.Lib.ValueLayout
import Idealize.ShloMosaic.Lib.Pipeline.Value

noncomputable section

open scoped BigOperators

namespace Cert.RefNode

open Idealize.ShloMosaic Idealize.ShloMosaic.ValueIdx Cert.ReferenceIdeal Cert.ReferenceIdeal.ReadP Cert.Layer

/-! ## Leaf facts -/

/-- The single-precision word of the real number one. -/
private theorem one_word : Ideal.ofBits .f32 0x3F800000#32 = 1 := by
  simp [Ideal.ofBits, Ideal.ieee, -EReal.coe_mul]; norm_num

/-- The product x · (1 / (1 + e^(-x))), spelt with the host's operations and the word of one, is silu x. -/
private theorem silu_read (x : Ideal .f32) :
    FloatOps.mulf x (FloatOps.hostDivf (FloatOps.ofBits .f32 0x3F800000#32)
      (FloatOps.addf (FloatOps.ofBits .f32 0x3F800000#32) (FloatOps.hostUnary .exp (FloatOps.hostNegf x)))) = silu x := by
  show x * Ideal.div (Ideal.ofBits .f32 0x3F800000#32) (Ideal.ofBits .f32 0x3F800000#32 + Ideal.exp (-x)) = x * Ideal.logistic x
  rw [one_word]
  rfl

/-- Two 128-column arrays joined along the columns, read at row e and column k: the node network's input row.
    A column below 128 falls in the first array; a column from 128 on falls in the second, 128 columns earlier. -/
private theorem join_read (A B : (⟨2, ![50000, 128]⟩ : Shape).Idx → EReal)
    (h : Shape.Concatenates [(⟨2, ![50000, 128]⟩ : Shape), ⟨2, ![50000, 128]⟩] ⟨2, ![50000, 256]⟩ 1)
    (e : Fin 50000) (k : Fin 256) :
    concatenate (⟨2, ![50000, 256]⟩ : Shape) 1 [⟨⟨2, ![50000, 128]⟩, A⟩, ⟨⟨2, ![50000, 128]⟩, B⟩] h (ix2 e k)
      = nodeIn (rowOf A e) (rowOf B e) k := by
  unfold nodeIn rowOf
  by_cases hk : k.val < 128
  · rw [dif_pos hk]
    exact concatenate_pair_apply_left 1 A B h (ix2 e k) rfl (ix2 e ⟨k.val, hk⟩)
      (fun b => by match b with | ⟨0, _⟩ => rfl | ⟨1, _⟩ => rfl)
  · rw [dif_neg hk]
    exact concatenate_pair_apply_right 1 A B h (ix2 e k) rfl rfl (ix2 e ⟨k.val - 128, by have := k.isLt; omega⟩)
      (fun b hb => by match b, hb with | ⟨0, _⟩, _ => rfl | ⟨1, _⟩, hb => exact absurd rfl hb)
      (by show (k.val - 128) + 128 = k.val; omega)

/-- The node update of whole arrays at row e and column j is the row update of row e, at j. -/
private theorem nodeArr_at {R : Nat} (h ms : Mat R 128) (Wh1 : Mat 128 256) (bh1 : Arr 128) (Wh2 : Mat 128 128)
    (bh2 : Arr 128) (e : Fin R) (j : Fin 128) :
    nodeArr h ms Wh1 bh1 Wh2 bh2 (ix2 e j)
      = nodeRow (rowOf h e) (rowOf ms e) (rowOf Wh1) (vecOf bh1) (rowOf Wh2) (vecOf bh2) j := rfl

/-! ## The composed index functions of the reference's operations, as rows and columns -/

/-- The first dot product reads its left operand at row e, column k. -/
private theorem lidx68 (e : Fin 50000) (n : Fin 128) (k : Fin 256) : lidx_main_v68 (ix2 e n) k = ix2 e k :=
  funext fun a => Fin.ext (by match a with | ⟨0, _⟩ => rfl | ⟨1, _⟩ => rfl)

/-- The first dot product reads the transposed third weight matrix at (k, n): the weight at (n, k). -/
private theorem ridx68 (e : Fin 50000) (n : Fin 128) (k : Fin 256) :
    idx_main_v67 (ridx_main_v68 (ix2 e n) k) = ix2 n k :=
  funext fun a => Fin.ext (by match a with | ⟨0, _⟩ => rfl | ⟨1, _⟩ => rfl)

/-- The first bias, broadcast twice, is read at the column. -/
private theorem bidx70 (e : Fin 50000) (n : Fin 128) : idx_main_v69 (idx_main_v70 (ix2 e n)) = ix1 n :=
  funext fun a => Fin.ext (by match a with | ⟨0, _⟩ => rfl)

/-- The second dot product reads its left operand at row e, column k. -/
private theorem lidx74 (e : Fin 50000) (j : Fin 128) (k : Fin 128) : lidx_main_v74 (ix2 e j) k = ix2 e k :=
  funext fun a => Fin.ext (by match a with | ⟨0, _⟩ => rfl | ⟨1, _⟩ => rfl)

/-- The second dot product reads the transposed fourth weight matrix at (k, j): the weight at (j, k). -/
private theorem ridx74 (e : Fin 50000) (j : Fin 128) (k : Fin 128) :
    idx_main_v73 (ridx_main_v74 (ix2 e j) k) = ix2 j k :=
  funext fun a => Fin.ext (by match a with | ⟨0, _⟩ => rfl | ⟨1, _⟩ => rfl)

/-- The second bias, broadcast twice, is read at the column. -/
private theorem bidx76 (e : Fin 50000) (j : Fin 128) : idx_main_v75 (idx_main_v76 (ix2 e j)) = ix1 j :=
  funext fun a => Fin.ext (by match a with | ⟨0, _⟩ => rfl)

/-! ## The stages, layer by layer -/

section Stages

variable (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal))

/-- The joined array at row e, column k: the node network's input row of the features' row e and the
    aggregated messages' row e. -/
private theorem join_at (e : Fin 50000) (k : Fin 256) :
    val_main_v66 (F := Ideal) x0 x1 x2 x3 x4 x5 x6 x11 x12 x13 (ix2 e k)
      = nodeIn (rowOf x1 e) (rowOf (val_main_v65 (F := Ideal) x0 x1 x2 x3 x4 x5 x6 x11 x12 x13) e) k := by
  unfold val_main_v66
  generalize val_main_v65 (F := Ideal) x0 x1 x2 x3 x4 x5 x6 x11 x12 x13 = ms
  exact join_read x1 ms _ e k

/-- The first dense layer before its activation, at (e, n): the input row against row n of the third
    weight matrix, plus the bias at n. -/
private theorem pre_at (e : Fin 50000) (n : Fin 128) :
    val_main_v71 (F := Ideal) x0 x1 x2 x3 x4 x5 x6 x7 x8 x11 x12 x13 (ix2 e n)
      = lin (nodeIn (rowOf x1 e) (rowOf (val_main_v65 (F := Ideal) x0 x1 x2 x3 x4 x5 x6 x11 x12 x13) e))
          (rowOf x7) (vecOf x8) n := by
  rw [val_main_v71_apply, val_main_v68_apply, val_main_v70_apply, val_main_v69_apply, bidx70]
  unfold lin
  refine congrArg₂ (· + ·) (Finset.sum_congr rfl fun k _ => ?_) rfl
  rw [lidx68, join_at, val_main_v67_apply, ridx68]
  rfl

/-- The hidden row at (e, n): silu of the first dense layer. -/
private theorem hid_at (e : Fin 50000) (n : Fin 128) :
    val_main_v72 (F := Ideal) x0 x1 x2 x3 x4 x5 x6 x7 x8 x11 x12 x13 (ix2 e n)
      = nodeHid (rowOf x1 e) (rowOf (val_main_v65 (F := Ideal) x0 x1 x2 x3 x4 x5 x6 x11 x12 x13) e)
          (rowOf x7) (vecOf x8) n := by
  rw [val_main_v72_apply, val_main_call2_v5_apply, val_main_call2_v4_apply, val_main_call2_cst_0_apply,
    val_main_call2_v3_apply, val_main_call2_v2_apply, val_main_call2_cst_apply, val_main_call2_v1_apply,
    val_main_call2_v0_apply, pre_at]
  exact silu_read _

/-- The second dense layer at (e, j): the hidden row against row j of the fourth weight matrix, plus the
    bias at j. -/
private theorem out_at (e : Fin 50000) (j : Fin 128) :
    val_main_v77 (F := Ideal) x0 x1 x2 x3 x4 x5 x6 x7 x8 x9 x10 x11 x12 x13 (ix2 e j)
      = lin (nodeHid (rowOf x1 e) (rowOf (val_main_v65 (F := Ideal) x0 x1 x2 x3 x4 x5 x6 x11 x12 x13) e)
          (rowOf x7) (vecOf x8)) (rowOf x9) (vecOf x10) j := by
  rw [val_main_v77_apply, val_main_v74_apply, val_main_v76_apply, val_main_v75_apply, bidx76]
  unfold lin
  refine congrArg₂ (· + ·) (Finset.sum_congr rfl fun k _ => ?_) rfl
  rw [lidx74, hid_at, val_main_v73_apply, ridx74]
  rfl

end Stages

/-- The reference's result is the node update of the features, its aggregated messages, and the node network's weights. -/
theorem ref_node (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal)) :
    val_main_v78 (F := Ideal) x0 x1 x2 x3 x4 x5 x6 x7 x8 x9 x10 x11 x12 x13
      = nodeArr (R := 50000) x1 (val_main_v65 (F := Ideal) x0 x1 x2 x3 x4 x5 x6 x11 x12 x13) x7 x8 x9 x10 := by
  funext i
  obtain ⟨e, j, rfl⟩ : ∃ (e : Fin 50000) (j : Fin 128), i = ix2 e j := ⟨i 0, i 1, eq_ix2 i⟩
  rw [val_main_v78_apply, out_at]
  generalize val_main_v65 (F := Ideal) x0 x1 x2 x3 x4 x5 x6 x11 x12 x13 = ms
  exact (nodeArr_at (R := 50000) x1 ms x7 x8 x9 x10 e j).symm

end Cert.RefNode

end
-- ==== Proof.Bridge.lean ====
/-
  The reference's result in the same closed form as the kernel program's.

  The reference computes the sender and receiver rows, the wrapped gathers of the feature table and of the
  position table, the distance column and the scatter-add of the messages by the same operations as the kernel
  program's host side, so those stages are the named host terms. With the two per-stage readings (the message
  array is the layer's message function; the result is the layer's node update) the reference's result is the
  node update of the features and the aggregated messages of the gathered features.
-/
import proofs.«176786_j15693810499839_1_alg».proof.Proof.RefStages
import proofs.«176786_j15693810499839_1_alg».proof.Proof.HostTerms
import proofs.«176786_j15693810499839_1_alg».proof.Proof.RefEdge
import proofs.«176786_j15693810499839_1_alg».proof.Proof.RefNode

noncomputable section

open scoped BigOperators

namespace Cert.Bridge

open Idealize.ShloMosaic Cert.ReferenceIdeal Cert.ReferenceIdeal.ReadP Cert.Layer Cert.HostTerms

/-- The reference's sender row is the kernel program's. -/
theorem ref_senders (x13 : (⟨S2x800000, .i32⟩ : BufTy).Contents (Elt Ideal)) : val_main_v1 (F := Ideal) x13 = senders x13 := rfl

/-- The reference's receiver row is the kernel program's. -/
theorem ref_receivers (x13 : (⟨S2x800000, .i32⟩ : BufTy).Contents (Elt Ideal)) : val_main_v3 (F := Ideal) x13 = receivers x13 := rfl

/-- The reference's sender-row features. -/
theorem ref_feat_senders (x1 : (⟨S50000x128, .f32⟩ : BufTy).Contents (Elt Ideal)) (x13 : (⟨S2x800000, .i32⟩ : BufTy).Contents (Elt Ideal)) : val_main_v29 (F := Ideal) x1 x13 = featAt x1 (senders x13) := by
  unfold val_main_v29 val_main_v28 val_main_v27 val_main_v26 val_main_v25 val_main_c_4 val_main_v24 val_main_v23 val_main_c_3
  rw [ref_senders]
  rfl

/-- The reference's receiver-row features. -/
theorem ref_feat_receivers (x1 : (⟨S50000x128, .f32⟩ : BufTy).Contents (Elt Ideal)) (x13 : (⟨S2x800000, .i32⟩ : BufTy).Contents (Elt Ideal)) : val_main_v36 (F := Ideal) x1 x13 = featAt x1 (receivers x13) := by
  unfold val_main_v36 val_main_v35 val_main_v34 val_main_v33 val_main_v32 val_main_c_6 val_main_v31 val_main_v30 val_main_c_5
  rw [ref_receivers]
  rfl

/-- The reference's sender-row positions. -/
theorem ref_pos_senders (x0 : (⟨S50000x3, .f32⟩ : BufTy).Contents (Elt Ideal)) (x13 : (⟨S2x800000, .i32⟩ : BufTy).Contents (Elt Ideal)) : val_main_v10 (F := Ideal) x0 x13 = posAt x0 (senders x13) := by
  unfold val_main_v10 val_main_v9 val_main_v8 val_main_v7 val_main_v6 val_main_c_0 val_main_v5 val_main_v4 val_main_c
  rw [ref_senders]
  rfl

/-- The reference's receiver-row positions. -/
theorem ref_pos_receivers (x0 : (⟨S50000x3, .f32⟩ : BufTy).Contents (Elt Ideal)) (x13 : (⟨S2x800000, .i32⟩ : BufTy).Contents (Elt Ideal)) : val_main_v17 (F := Ideal) x0 x13 = posAt x0 (receivers x13) := by
  unfold val_main_v17 val_main_v16 val_main_v15 val_main_v14 val_main_v13 val_main_c_2 val_main_v12 val_main_v11 val_main_c_1
  rw [ref_receivers]
  rfl

/-- The reference's distance column. -/
theorem ref_radial (x0 : (⟨S50000x3, .f32⟩ : BufTy).Contents (Elt Ideal)) (x13 : (⟨S2x800000, .i32⟩ : BufTy).Contents (Elt Ideal)) : val_main_v22 (F := Ideal) x0 x13 = radial x0 x13 := by
  unfold val_main_v22 val_main_v21 val_main_v20 val_main_v19 val_main_v18 val_main_cst
  rw [ref_pos_senders, ref_pos_receivers]
  rfl

/-- The reference's aggregation of its message array. -/
theorem ref_aggregated (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal)) :
    val_main_v65 (F := Ideal) x0 x1 x2 x3 x4 x5 x6 x11 x12 x13
      = aggregated x13 (val_main_v62 (F := Ideal) x0 x1 x2 x3 x4 x5 x6 x11 x12 x13) := by
  unfold val_main_v65 val_main_v64 val_main_v63 val_main_cst_9
  rw [ref_senders]
  rfl

/-- THE REFERENCE'S RESULT: the node update of the features and the aggregated messages. -/
theorem ref_value (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal)) :
    val_main_v78 (F := Ideal) x0 x1 x2 x3 x4 x5 x6 x7 x8 x9 x10 x11 x12 x13
      = nodeArr (R := 50000) x1
          (aggregated x13 (edgeArr (R := 800000) (featAt x1 (senders x13)) (featAt x1 (receivers x13))
            (auxArr (R := 800000) (radial x0 x13) x2) x3 x4 x5 x6 x11 x12))
          x7 x8 x9 x10 := by
  rw [Cert.RefNode.ref_node, ref_aggregated, Cert.RefEdge.ref_edge, ref_feat_senders, ref_feat_receivers, ref_radial]

end Cert.Bridge

end
-- ==== Proof.lean ====
/-
  One message-passing layer on a graph of 50000 nodes and 800000 edges: the kernel program against its
  reference, over the extended reals.

  Both programs gather the feature rows of every edge's two endpoints and the distance between the endpoints'
  positions; compute per edge the message m = s2 · σ(s2 · wa + ba), with s1 = silu(W1 · [h_i, h_j, r, a] + b1)
  and s2 = silu(W2 · s1 + b2); add the messages up per sender node; and update every node by
  h + W4 · silu(W3 · [h, Σm] + b3) + b4. The kernel program runs the per-edge network in blocks of 4000 edges
  and the per-node network in blocks of 5000 nodes, joins the distance column to the edge attributes before the
  first stage instead of inside one four-way join, transposes the weights in the body, and applies σ as one
  operation where the reference writes 1 / (1 + e^(-x)). None of this changes a value over the extended reals:
  the blocks tile the arrays and a row of either network's result depends on its own rows only; a join read at
  a column is the piece that holds the column; a matrix product is the sum of products in either program; and
  σ(x) is 1 / (1 + e^(-x)) by definition. So both results are the same function of the arguments, and no
  finiteness is used.

  The frames of the two kernel programs are the generated ones; the reference's frame is its run with
  the result dropped; the idealization rewrote no operation, so there is nothing to preserve.
-/
import proofs.«176786_j15693810499839_1_alg».proof.Defs
import proofs.«176786_j15693810499839_1_alg».proof.Proof.Gen.Kernel
import proofs.«176786_j15693810499839_1_alg».proof.Proof.Gen.Kernel.Frame
import proofs.«176786_j15693810499839_1_alg».proof.Proof.Gen.KernelIdeal
import proofs.«176786_j15693810499839_1_alg».proof.Proof.Gen.KernelIdeal.Frame
import proofs.«176786_j15693810499839_1_alg».proof.Proof.Gen.ReferenceIdeal
import proofs.«176786_j15693810499839_1_alg».proof.Proof.RefRun
import proofs.«176786_j15693810499839_1_alg».proof.Proof.RefStages
import proofs.«176786_j15693810499839_1_alg».proof.Proof.Gen.Pre_finite_inputs
import proofs.«176786_j15693810499839_1_alg».proof.Proof.KernelRun
import proofs.«176786_j15693810499839_1_alg».proof.Proof.KernelValue
import proofs.«176786_j15693810499839_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments, both programs end with the node update of the features and the
    aggregated messages: the kernel program's result array by its two stages' whole-array functions, the
    reference's by its operations read at an index. -/
theorem algebraic : Cert.algebraic_KernelIdeal_ReferenceIdeal := by
  intro m ρ m' ρ' _ hagree
  refine ⟨fun c => Cert.KernelIdeal.Gen.W4 (F := Ideal) m ρ c (Proc.devRef .tc Cert.KernelIdeal.main_v42),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13⟩ := hagree c
  rw [Cert.ReferenceIdeal.ReadP.val_main_v78_eq, a0, a1, a2, a3, a4, a5, a6, a7, a8, a9, a10, a11, a12, a13, Cert.Bridge.ref_value]
  exact (Cert.KernelValue.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
